-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x4096x2 : Shape := ⟨3, ![8, 4096, 2]⟩
abbrev S1024x512 : Shape := ⟨2, ![1024, 512]⟩
abbrev S512 : Shape := ⟨1, ![512]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S8x4096x2 : S_.BroadcastsInDim S8x4096x2 (![] : Fin 0 → Fin S8x4096x2.rank)
  reducesTo_S8x4096x2_S_d0_1_2 : S8x4096x2.ReducesTo [0, 1, 2] S_

variable [Facts]

def fn_part1 {F : FTy → Type} [FloatOps F] (main_arg1 : IVec S8x4096x2 32) (main_arg5 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S8x4096x2 32 := broadcastInDim S8x4096x2 ![] bcast_S_S8x4096x2 main_c_8
  let main_v25 : IVec S8x4096x2 1 := cmpi .sge main_arg1 main_v24
  let main_c_9 : IVec S_ 1 := constantI S_ 1 1#1
  let main_v26 : IVec S_ 1 := (fun x v => Host.reduce IntOp.andi x v reducesTo_S8x4096x2_S_d0_1_2 h_S_) main_v25 main_c_9
  let main_v27 : IVec S_ 1 := andi main_v23 main_v26
  let main_c_10 : IVec S_ 32 := constantI S_ 32 1023#32
  let main_v28 : IVec S8x4096x2 32 := broadcastInDim S8x4096x2 ![] bcast_S_S8x4096x2 main_c_10
  let main_v29 : IVec S8x4096x2 1 := cmpi .sle main_arg1 main_v28
  let main_c_11 : IVec S_ 1 := constantI S_ 1 1#1
  let main_v30 : IVec S_ 1 := (fun x v => Host.reduce IntOp.andi x v reducesTo_S8x4096x2_S_d0_1_2 h_S_) main_v29 main_c_11
  let main_v31 : IVec S_ 1 := andi main_v27 main_v30
  main_v31

def fn {F : FTy → Type} [FloatOps F] (main_arg0 : FVec F S8x1024x1024 .f32) (main_arg1 : IVec S8x4096x2 32) (main_arg2 : FVec F S1024x512 .f32) (main_arg3 : FVec F S512 .f32) (main_arg4 : FVec F S1024x512 .f32) (main_arg5 : FVec F S512 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x512 .f32 := Host.absf main_arg2
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg1 main_arg5 main_v13 main_v16
-- ==== Kernel.lean ====
abbrev S8x1024x1024 : Shape := ⟨3, ![8, 1024, 1024]⟩
abbrev S8x4096x2 : Shape := ⟨3, ![8, 4096, 2]⟩
abbrev S1024x512 : Shape := ⟨2, ![1024, 512]⟩
abbrev S512 : Shape := ⟨1, ![512]⟩
abbrev S8x4096x1 : Shape := ⟨3, ![8, 4096, 1]⟩
abbrev S8x4096 : Shape := ⟨2, ![8, 4096]⟩
abbrev S_ : Shape := ⟨0, ![]⟩
abbrev S512x512 : Shape := ⟨2, ![512, 512]⟩
abbrev S8x4096x512 : Shape := ⟨3, ![8, 4096, 512]⟩
abbrev S1x1024x1024 : Shape := ⟨3, ![1, 1024, 1024]⟩
abbrev S1x1024x1 : Shape := ⟨3, ![1, 1024, 1]⟩
abbrev S1x1024x512 : Shape := ⟨3, ![1, 1024, 512]⟩
abbrev S1024x1024 : Shape := ⟨2, ![1024, 1024]⟩
abbrev S1x512 : Shape := ⟨2, ![1, 512]⟩
abbrev S1024x1 : Shape := ⟨2, ![1024, 1]⟩

abbrev nBuf : Space → Nat
  | .hbm => 31
  | .vmem => 15
  | .smem => 0
  | _ => 0

abbrev bufTy : (tb : Table) → Fin (tcTables nBuf tb) → BufTy
  | .hbm, ⟨0, _⟩ => ⟨S8x1024x1024, .f32⟩
  | .hbm, ⟨1, _⟩ => ⟨S8x4096x2, .i32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S8x4096x1, .i32⟩
  | .hbm, ⟨7, _⟩ => ⟨S8x4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S8x4096, .i32⟩
  | .hbm, ⟨12, _⟩ => ⟨S8x4096, .i32⟩
  | .hbm, ⟨13, _⟩ => ⟨S_, .i32⟩
  | .hbm, ⟨14, _⟩ => ⟨S8x4096, .i32⟩
  | .hbm, ⟨15, _⟩ => ⟨S8x4096, .i32⟩
  | .hbm, ⟨16, _⟩ => ⟨S8x4096x1, .i32⟩
  | .hbm, ⟨17, _⟩ => ⟨S8x4096x1, .i32⟩
  | .hbm, ⟨18, _⟩ => ⟨S8x4096, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8x4096, .i32⟩
  | .hbm, ⟨23, _⟩ => ⟨S8x4096, .i32⟩
  | .hbm, ⟨24, _⟩ => ⟨S_, .i32⟩
  | .hbm, ⟨25, _⟩ => ⟨S8x4096, .i32⟩
  | .hbm, ⟨26, _⟩ => ⟨S8x4096, .i32⟩
  | .hbm, ⟨27, _⟩ => ⟨S8x4096x1, .i32⟩
  | .hbm, ⟨28, _⟩ => ⟨S512x512, .f32⟩
  | .hbm, ⟨29, _⟩ => ⟨S512x512, .f32⟩
  | .hbm, ⟨30, _⟩ => ⟨S8x4096x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1, .i32⟩
  | .local _ .vmem, ⟨3, _⟩ => ⟨S1x1024x1, .i32⟩
  | .local _ .vmem, ⟨4, _⟩ => ⟨S1x1024x1, .i32⟩
  | .local _ .vmem, ⟨5, _⟩ => ⟨S1x1024x1, .i32⟩
  | .local _ .vmem, ⟨6, _⟩ => ⟨S1024x512, .f32⟩
  | .local _ .vmem, ⟨7, _⟩ => ⟨S512, .f32⟩
  | .local _ .vmem, ⟨8, _⟩ => ⟨S512x512, .f32⟩
  | .local _ .vmem, ⟨9, _⟩ => ⟨S512x512, .f32⟩
  | .local _ .vmem, ⟨10, _⟩ => ⟨S512, .f32⟩
  | .local _ .vmem, ⟨11, _⟩ => ⟨S1x1024x512, .f32⟩
  | .local _ .vmem, ⟨12, _⟩ => ⟨S1x1024x512, .f32⟩
  | .local _ .vmem, ⟨13, _⟩ => ⟨S1024x512, .bf16⟩
  | .local _ .vmem, ⟨14, _⟩ => ⟨S1024x512, .bf16⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S8x4096x2_S8x4096x1_0_0_0 : S8x4096x2.Slices ![0, 0, 0] S8x4096x1
  shapeCasts_S8x4096x1_S8x4096 : S8x4096x1.ShapeCasts S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  slices_S8x4096x2_S8x4096x1_0_0_1 : S8x4096x2.Slices ![0, 0, 1] S8x4096x1
  slices_S1024x512_S512x512_0_0 : S1024x512.Slices ![0, 0] S512x512
  slices_S1024x512_S512x512_512_0 : S1024x512.Slices ![512, 0] S512x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1024x512_S1024x512 : S1024x512.ShapeCasts S1024x512
  packedbf16_S1024x512_S1024x512_0_0 : (Rect.unit (s := S1024x512) ![0, 0] S1024x512.size inb_S1024x512_S1024x512_0_0).PackedRows (EltTy.packing .bf16)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x1024_d1_w32 : S1024x1024.Iotas .tc 32 [1]
  broadcasts_S1024x1_S1024x1024 : S1024x1.Broadcasts S1024x1024
  natLt_1_32 : 1 < 32
  shapeCasts_S1024x512_S1x1024x512 : S1024x512.ShapeCasts S1x1024x512
  inb_S1x1024x512_S1x1024x512_0_0_0 : ∀ a, (![0, 0, 0] : Fin 3 → Nat) a + S1x1024x512.size a ≤ S1x1024x512.size a
  h_S1x1024x512 : 0 < S1x1024x512.numel
  dot_S1024x1024_S1024x512_S1024x512_1_0_0_1_n_n_wf : DotDims.WF S1024x1024 S1024x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S8x4096x1.size a
  hwx0_1 : ∀ i : grid0.Coords, EltTy.bits .i32 = 32 ∨ (Rect.block (s := S8x4096x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S8x4096x1.size a
  hwx0_2 : ∀ i : grid0.Coords, EltTy.bits .i32 = 32 ∨ (Rect.block (s := S8x4096x1) S1x1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S8x4096x512.size a
  hwx0_8 : ∀ i : grid0.Coords, EltTy.bits .f32 = 32 ∨ (Rect.block (s := S8x4096x512) S1x1024x512.size (cc0_transform_8 i) (hinb0_8 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x4096x2 : Shape := ⟨3, ![8, 4096, 2]⟩
abbrev S1024x512 : Shape := ⟨2, ![1024, 512]⟩
abbrev S512 : Shape := ⟨1, ![512]⟩
abbrev S8x1024x512 : Shape := ⟨3, ![8, 1024, 512]⟩
abbrev S1x1x512 : Shape := ⟨3, ![1, 1, 512]⟩
abbrev S_ : Shape := ⟨0, ![]⟩
abbrev S8x4096x1 : Shape := ⟨3, ![8, 4096, 1]⟩
abbrev S8x4096 : Shape := ⟨2, ![8, 4096]⟩
abbrev S1 : Shape := ⟨1, ![1]⟩
abbrev S1x1x1 : Shape := ⟨3, ![1, 1, 1]⟩
abbrev S8x4096x512 : Shape := ⟨3, ![8, 4096, 512]⟩
abbrev S8x4096x1024 : Shape := ⟨3, ![8, 4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x4096x2, .i32⟩
  | .hbm, ⟨2, _⟩ => ⟨S1024x512, .f32⟩
  | .hbm, ⟨3, _⟩ => ⟨S512, .f32⟩
  | .hbm, ⟨4, _⟩ => ⟨S1024x512, .f32⟩
  | .hbm, ⟨5, _⟩ => ⟨S512, .f32⟩
  | .hbm, ⟨6, _⟩ => ⟨S8x1024x512, .f32⟩
  | .hbm, ⟨7, _⟩ => ⟨S1x1x512, .f32⟩
  | .hbm, ⟨8, _⟩ => ⟨S8x1024x512, .f32⟩
  | .hbm, ⟨9, _⟩ => ⟨S8x1024x512, .f32⟩
  | .hbm, ⟨10, _⟩ => ⟨S_, .f32⟩
  | .hbm, ⟨11, _⟩ => ⟨S8x1024x512, .f32⟩
  | .hbm, ⟨12, _⟩ => ⟨S8x1024x512, .f32⟩
  | .hbm, ⟨13, _⟩ => ⟨S8x4096x1, .i32⟩
  | .hbm, ⟨14, _⟩ => ⟨S8x4096, .i32⟩
  | .hbm, ⟨15, _⟩ => ⟨S8x4096x1, .i32⟩
  | .hbm, ⟨16, _⟩ => ⟨S8x4096, .i32⟩
  | .hbm, ⟨17, _⟩ => ⟨S8x4096x1, .i32⟩
  | .hbm, ⟨18, _⟩ => ⟨S_, .i32⟩
  | .hbm, ⟨19, _⟩ => ⟨S8x4096x1, .i32⟩
  | .hbm, ⟨20, _⟩ => ⟨S8x4096x1, .i1⟩
  | .hbm, ⟨21, _⟩ => ⟨S_, .i32⟩
  | .hbm, ⟨22, _⟩ => ⟨S8x4096x1, .i32⟩
  | .hbm, ⟨23, _⟩ => ⟨S8x4096x1, .i32⟩
  | .hbm, ⟨24, _⟩ => ⟨S8x4096x1, .i32⟩
  | .hbm, ⟨25, _⟩ => ⟨S1, .i32⟩
  | .hbm, ⟨26, _⟩ => ⟨S_, .i32⟩
  | .hbm, ⟨27, _⟩ => ⟨S8x4096x1, .i32⟩
  | .hbm, ⟨28, _⟩ => ⟨S8x4096x1, .i1⟩
  | .hbm, ⟨29, _⟩ => ⟨S1x1x1, .i32⟩
  | .hbm, ⟨30, _⟩ => ⟨S8x4096x1, .i32⟩
  | .hbm, ⟨31, _⟩ => ⟨S8x4096x1, .i1⟩
  | .hbm, ⟨32, _⟩ => ⟨S8x4096x1, .i1⟩
  | .hbm, ⟨33, _⟩ => ⟨S_, .i1⟩
  | .hbm, ⟨34, _⟩ => ⟨S8x4096, .i1⟩
  | .hbm, ⟨35, _⟩ => ⟨S8x4096x512, .f32⟩
  | .hbm, ⟨36, _⟩ => ⟨S8x4096x512, .i1⟩
  | .hbm, ⟨37, _⟩ => ⟨S_, .f32⟩
  | .hbm, ⟨38, _⟩ => ⟨S8x4096x512, .f32⟩
  | .hbm, ⟨39, _⟩ => ⟨S8x4096x512, .f32⟩
  | .hbm, ⟨40, _⟩ => ⟨S8x4096x1, .i32⟩
  | .hbm, ⟨41, _⟩ => ⟨S_, .i32⟩
  | .hbm, ⟨42, _⟩ => ⟨S8x4096x1, .i32⟩
  | .hbm, ⟨43, _⟩ => ⟨S8x4096x1, .i1⟩
  | .hbm, ⟨44, _⟩ => ⟨S_, .i32⟩
  | .hbm, ⟨45, _⟩ => ⟨S8x4096x1, .i32⟩
  | .hbm, ⟨46, _⟩ => ⟨S8x4096x1, .i32⟩
  | .hbm, ⟨47, _⟩ => ⟨S8x4096x1, .i32⟩
  | .hbm, ⟨48, _⟩ => ⟨S1, .i32⟩
  | .hbm, ⟨49, _⟩ => ⟨S_, .i32⟩
  | .hbm, ⟨50, _⟩ => ⟨S8x4096x1, .i32⟩
  | .hbm, ⟨51, _⟩ => ⟨S8x4096x1, .i1⟩
  | .hbm, ⟨52, _⟩ => ⟨S1x1x1, .i32⟩
  | .hbm, ⟨53, _⟩ => ⟨S8x4096x1, .i32⟩
  | .hbm, ⟨54, _⟩ => ⟨S8x4096x1, .i1⟩
  | .hbm, ⟨55, _⟩ => ⟨S8x4096x1, .i1⟩
  | .hbm, ⟨56, _⟩ => ⟨S_, .i1⟩
  | .hbm, ⟨57, _⟩ => ⟨S8x4096, .i1⟩
  | .hbm, ⟨58, _⟩ => ⟨S8x4096x512, .f32⟩
  | .hbm, ⟨59, _⟩ => ⟨S8x4096x512, .i1⟩
  | .hbm, ⟨60, _⟩ => ⟨S_, .f32⟩
  | .hbm, ⟨61, _⟩ => ⟨S8x4096x512, .f32⟩
  | .hbm, ⟨62, _⟩ => ⟨S8x4096x512, .f32⟩
  | .hbm, ⟨63, _⟩ => ⟨S8x4096x1024, .f32⟩
  | .hbm, ⟨64, _⟩ => ⟨S8x4096x512, .f32⟩
  | .hbm, ⟨65, _⟩ => ⟨S1x1x512, .f32⟩
  | .hbm, ⟨66, _⟩ => ⟨S8x4096x512, .f32⟩
  | .hbm, ⟨67, _⟩ => ⟨S8x4096x512, .f32⟩
  | .hbm, ⟨68, _⟩ => ⟨S_, .f32⟩
  | .hbm, ⟨69, _⟩ => ⟨S8x4096x512, .f32⟩
  | .hbm, ⟨70, _⟩ => ⟨S8x4096x512, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_c_2 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c_3 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v10 : Ref sig .tc := ⟨.hbm, 39, rfl⟩
abbrev main_v11 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_c_1 : Ref sig .tc := ⟨.hbm, 48, rfl⟩
abbrev main_call2_c_2 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_c_3 : Ref sig .tc := ⟨.hbm, 56, rfl⟩
abbrev main_call2_v11 : Ref sig .tc := ⟨.hbm, 57, rfl⟩
abbrev main_call2_v12 : Ref sig .tc := ⟨.hbm, 58, rfl⟩
abbrev main_call2_v13 : Ref sig .tc := ⟨.hbm, 59, rfl⟩
abbrev main_call2_cst : Ref sig .tc := ⟨.hbm, 60, rfl⟩
abbrev main_call2_v14 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call3_cst : Ref sig .tc := ⟨.hbm, 68, rfl⟩
abbrev main_call3_v0 : Ref sig .tc := ⟨.hbm, 69, rfl⟩
abbrev main_v18 : Ref sig .tc := ⟨.hbm, 70, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  bcast_S_S8x1024x512 : S_.BroadcastsInDim S8x1024x512 (![] : Fin 0 → Fin S8x1024x512.rank)
  slices_S8x4096x2_S8x4096x1_0_0_0 : S8x4096x2.Slices ![0, 0, 0] S8x4096x1
  shapeCasts_S8x4096x1_S8x4096 : S8x4096x1.ShapeCasts S8x4096
  slices_S8x4096x2_S8x4096x1_0_0_1 : S8x4096x2.Slices ![0, 0, 1] S8x4096x1
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  reducesTo_S8x4096x1_S8x4096_d2 : S8x4096x1.ReducesTo [2] S8x4096
  h_S_ : 0 < S_.numel
  bcast_S8x4096_S8x4096x512_0_1 : S8x4096.BroadcastsInDim S8x4096x512 (![0, 1] : Fin 2 → Fin S8x4096x512.rank)
  bcast_S_S8x4096x512 : S_.BroadcastsInDim S8x4096x512 (![] : Fin 0 → Fin S8x4096x512.rank)
  concatenates_S8x4096x512_S8x4096x512_S8x4096x1024_d2 : Shape.Concatenates [S8x4096x512, S8x4096x512] S8x4096x1024 2
  bcast_S1x1x512_S8x4096x512_0_1_2 : S1x1x512.BroadcastsInDim S8x4096x512 (![0, 1, 2] : Fin 3 → Fin S8x4096x512.rank)
  dot_S8x1024x1024_S1024x512_S8x1024x512_2_0_01_1_n_n_wf : DotDims.WF S8x1024x1024 S1024x512 S8x1024x512 [2] [0] [0, 1] [1] [] []
  gather_S8x1024x512_S8x4096x1_S8x4096x512_2_1_0_0_1_2_11512_wf : GatherDims.WF S8x1024x512 S8x4096x1 S8x4096x512 [2] [1] [0] [1] [0] 2 ![1, 1, 512]
  dot_S8x4096x1024_S1024x512_S8x4096x512_2_0_01_1_n_n_wf : DotDims.WF S8x4096x1024 S1024x512 S8x4096x512 [2] [0] [0, 1] [1] [] []

variable [Facts₀]

def dot_S8x1024x1024_S1024x512_S8x1024x512_2_0_01_1_n_n : DotDims S8x1024x1024 S1024x512 S8x1024x512 where
  lhsContracting := [2]
  rhsContracting := [0]
  lhsNonContracting := [0, 1]
  rhsNonContracting := [1]
  lhsBatch := []
  rhsBatch := []
  wf := dot_S8x1024x1024_S1024x512_S8x1024x512_2_0_01_1_n_n_wf
def gather_S8x1024x512_S8x4096x1_S8x4096x512_2_1_0_0_1_2_11512 : GatherDims S8x1024x512 S8x4096x1 S8x4096x512 where
  offsetDims := [2]
  collapsedSliceDims := [1]
  operandBatchingDims := [0]
  startIndicesBatchingDims := [0]
  startIndexMap := [1]
  indexVectorDim := 2
  sliceSizes := ![1, 1, 512]
  wf := gather_S8x1024x512_S8x4096x1_S8x4096x512_2_1_0_0_1_2_11512_wf
def dot_S8x4096x1024_S1024x512_S8x4096x512_2_0_01_1_n_n : DotDims S8x4096x1024 S1024x512 S8x4096x512 where
  lhsContracting := [2]
  rhsContracting := [0]
  lhsNonContracting := [0, 1]
  rhsNonContracting := [1]
  lhsBatch := []
  rhsBatch := []
  wf := dot_S8x4096x1024_S1024x512_S8x4096x512_2_0_01_1_n_n_wf

class Facts : Prop extends Facts₀ where

variable [Facts]
-- ==== Proof.RefStages.lean ====
/-
  The three operations of the reference that are read by hand at one index: the gather that takes, for each pair of a
  batch, one span row of that batch's hidden rows — the row the index word names, read signed and clamped into
  [0, 1023] —; the conjunction over an axis of extent one, which is its one entry; and the two 512-wide row tables laid
  side by side, whose column `k` comes from the first for `k < 512` and from the second, at `k − 512`, otherwise.
-/
import proofs.«424607_j63376537420533_2_alg».proof.Proof.Gen.ReferenceIdeal
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Reduce

noncomputable section

namespace Cert.ReferenceIdeal.Stages

open Cert.ReferenceIdeal Cert.ReferenceIdeal.Gen Idealize.ShloMosaic Idealize.ShloMosaic.ValueIdx

variable {α : Type}

/-- The dimension numbers of the reference's gather, under a short name. -/
private abbrev gd : GatherDims S8x1024x512 S8x4096x1 S8x4096x512 :=
  gather_S8x1024x512_S8x4096x1_S8x4096x512_2_1_0_0_1_2_11512

/-- The gather at batch `b`, pair `p`, column `f`: the operand's row of batch `b` that the pair's index word names, the
    word read signed and clamped into `[0, 1023]`, at column `f`. -/
theorem gather_apply (x : S8x1024x512.Idx → α) (idx : IVec S8x4096x1 32) (b : Fin 8) (p : Fin 4096) (f : Fin 512) :
    Host.gather gather_S8x1024x512_S8x4096x1_S8x4096x512_2_1_0_0_1_2_11512 x idx (ix3 b p f)
      = x (ix3 b (⟨min (idx (ix3 b p (0 : Fin 1))).toInt.toNat 1023, by omega⟩ : Fin 1024) f) := by
  -- a coordinate of the result index, named by an axis known only up to equality
  have key0 : ∀ X : Fin 3, X = 0 → ((ix3 b p f : S8x4096x512.Idx) X).val = b.val := fun X h => by subst h; rfl
  have key1 : ∀ X : Fin 3, X = 1 → ((ix3 b p f : S8x4096x512.Idx) X).val = p.val := fun X h => by subst h; rfl
  have key2 : ∀ X : Fin 3, X = 2 → ((ix3 b p f : S8x4096x512.Idx) X).val = f.val := fun X h => by subst h; rfl
  unfold Host.gather
  congr 1
  funext a
  refine Fin.ext ?_
  match a with
  | ⟨0, _⟩ =>
    -- the batching axis: no start, no offset, the batch coordinate is the result's coordinate 0
    show gd.start (ix3 b p f) idx 0 + gd.batchCoord (ix3 b p f) 0 + gd.offCoord (ix3 b p f) 0 = b.val
    have hb : (0 : Fin 3) ∈ gd.operandBatchingDims := List.mem_singleton.mpr rfl
    rw [gd.start_batching _ _ _ hb, gd.offCoord_eq_zero _ _ (fun h => ((gd.mem_sKept _).mp h).2 hb), Nat.zero_add,
      Nat.add_zero]
    unfold GatherDims.batchCoord
    rw [dif_pos hb]
    unfold GatherDims.siCoord
    simp only [Fin.val_cast]
    exact key0 _ rfl
  | ⟨1, _⟩ =>
    -- the collapsed axis the index word names: the clamped start, no batch coordinate, no offset
    show gd.start (ix3 b p f) idx 1 + gd.batchCoord (ix3 b p f) 1 + gd.offCoord (ix3 b p f) 1
      = min (idx (ix3 b p (0 : Fin 1))).toInt.toNat 1023
    have hc : (1 : Fin 3) ∈ gd.collapsedSliceDims := List.mem_singleton.mpr rfl
    have hm : (1 : Fin 3) ∈ gd.startIndexMap := List.mem_singleton.mpr rfl
    rw [gd.batchCoord_eq_zero _ _ (by decide), gd.offCoord_eq_zero _ _ (fun h => ((gd.mem_sKept _).mp h).1 hc)]
    simp only [Nat.add_zero]
    unfold GatherDims.start
    rw [dif_pos hm]
    -- the index word is read at the result's batch coordinates, with 0 on the index vector's axis
    have hsi : gd.siIdx (ix3 b p f) ⟨List.idxOf (1 : Fin 3) gd.startIndexMap, List.idxOf_lt_length_iff.2 hm⟩
        = ix3 b p (0 : Fin 1) := by
      funext c
      refine Fin.ext ?_
      match c with
      | ⟨0, _⟩ =>
        unfold GatherDims.siIdx
        split
        · next h => exact absurd h (show ¬ (0 : Nat) = 2 by decide)
        · unfold GatherDims.siCoord
          simp only [Fin.val_cast]
          exact key0 _ rfl
      | ⟨1, _⟩ =>
        unfold GatherDims.siIdx
        split
        · next h => exact absurd h (show ¬ (1 : Nat) = 2 by decide)
        · unfold GatherDims.siCoord
          simp only [Fin.val_cast]
          exact key1 _ rfl
      | ⟨2, _⟩ =>
        unfold GatherDims.siIdx
        split
        · rfl
        · next h => exact absurd (rfl : (2 : Nat) = 2) h
    rw [hsi]
    rfl
  | ⟨2, _⟩ =>
    -- the offset axis, taken whole: start 0, no batch coordinate, the offset is the result's coordinate 2
    show gd.start (ix3 b p f) idx 2 + gd.batchCoord (ix3 b p f) 2 + gd.offCoord (ix3 b p f) 2 = f.val
    have hk : (2 : Fin 3) ∈ gd.sKept := (gd.mem_sKept _).mpr ⟨by decide, by decide⟩
    have hs : gd.start (ix3 b p f) idx 2 = 0 := by
      unfold GatherDims.start
      rw [dif_neg (by decide)]
    rw [hs, gd.batchCoord_eq_zero _ _ (by decide)]
    simp only [Nat.zero_add]
    unfold GatherDims.offCoord
    rw [dif_pos hk]
    exact key2 _ rfl

/-- The conjunction over the last axis, of extent one, from the initial value `true`: the one entry. -/
theorem reduce_and_apply (v : IVec S8x4096x1 1) (b : Fin 8) (p : Fin 4096) :
    Host.reduce IntOp.andi v (constantI S_ 1 1#1) reducesTo_S8x4096x1_S8x4096_d2 h_S_ (ix2 b p)
      = v (ix3 b p (0 : Fin 1)) := by
  rw [Host.reduce_eq_fold]
  -- the source indices that drop to `(b, p)`: the one index `(b, p, 0)`
  have hset : (Finset.univ.filter fun i : S8x4096x1.Idx => reducesTo_S8x4096x1_S8x4096_d2.drop i = ix2 b p)
      = {ix3 b p (0 : Fin 1)} := by
    ext i
    simp only [Finset.mem_filter, Finset.mem_univ, true_and, Finset.mem_singleton]
    have d0 : ((reducesTo_S8x4096x1_S8x4096_d2.drop i) 0 : Nat) = (i 0 : Nat) :=
      Shape.ReducesTo.drop_apply_val_of_eq _ i 0 0
    have d1 : ((reducesTo_S8x4096x1_S8x4096_d2.drop i) 1 : Nat) = (i 1 : Nat) :=
      Shape.ReducesTo.drop_apply_val_of_eq _ i 1 1
    constructor
    · intro h
      rw [h] at d0 d1
      funext c
      refine Fin.ext ?_
      match c with
      | ⟨0, _⟩ => exact d0.symm
      | ⟨1, _⟩ => exact d1.symm
      | ⟨2, _⟩ =>
        have h2 : (i 2 : Nat) < 1 := (i 2).isLt
        show (i 2 : Nat) = 0
        omega
    · intro h
      subst h
      funext c
      refine Fin.ext ?_
      match c with
      | ⟨0, _⟩ => exact d0
      | ⟨1, _⟩ => exact d1
  rw [hset, Finset.fold_singleton]
  -- a bit and `true` is the bit
  show v (ix3 b p (0 : Fin 1)) &&& 1#1 = v (ix3 b p (0 : Fin 1))
  rcases BitVec.eq_zero_or_eq_one (v (ix3 b p (0 : Fin 1))) with h | h <;> rw [h] <;> rfl

/-- Two 512-wide tables side by side, read at column `k < 512`: the first table's column `k`. -/
theorem concat_left (x₁ x₂ : S8x4096x512.Idx → α) (b : Fin 8) (p : Fin 4096) (f : Fin 512) :
    concatenate S8x4096x1024 2 [⟨S8x4096x512, x₁⟩, ⟨S8x4096x512, x₂⟩] concatenates_S8x4096x512_S8x4096x512_S8x4096x1024_d2
        (ix3 b p (⟨f.val, by omega⟩ : Fin 1024))
      = x₁ (ix3 b p f) := by
  refine concatenate_pair_apply_left (t := S8x4096x1024) (2 : Fin 3) x₁ x₂
    concatenates_S8x4096x512_S8x4096x512_S8x4096x1024_d2 (ix3 b p (⟨f.val, by omega⟩ : Fin 1024)) rfl (ix3 b p f) ?_
  intro c
  match c with
  | ⟨0, _⟩ => rfl
  | ⟨1, _⟩ => rfl
  | ⟨2, _⟩ => rfl

/-- … and at column `512 + f`: the second table's column `f`. -/
theorem concat_right (x₁ x₂ : S8x4096x512.Idx → α) (b : Fin 8) (p : Fin 4096) (f : Fin 512) :
    concatenate S8x4096x1024 2 [⟨S8x4096x512, x₁⟩, ⟨S8x4096x512, x₂⟩] concatenates_S8x4096x512_S8x4096x512_S8x4096x1024_d2
        (ix3 b p (⟨512 + f.val, by omega⟩ : Fin 1024))
      = x₂ (ix3 b p f) := by
  refine concatenate_pair_apply_right (t := S8x4096x1024) (2 : Fin 3) x₁ x₂
    concatenates_S8x4096x512_S8x4096x512_S8x4096x1024_d2 (ix3 b p (⟨512 + f.val, by omega⟩ : Fin 1024)) rfl rfl (ix3 b p f)
    ?_ ?_
  · intro c hc
    match c with
    | ⟨0, _⟩ => rfl
    | ⟨1, _⟩ => rfl
    | ⟨2, _⟩ => exact absurd rfl hc
  · show f.val + 512 = 512 + f.val
    omega

end Cert.ReferenceIdeal.Stages

end
-- ==== Proof.PairSpec.lean ====
/-
  What both programs compute, index by index, on the extended reals.

  A batch `b` holds 1024 span rows of width 1024. The first layer sends row `s` to
  `hidden b s f = max (∑ d, x[b,s,d] · W1[d,f] + b1[f]) 0`, a row of width 512. A pair `p` of batch `b`
  names two rows, its parent and its child; the result at `(b, p, g)` is

      max ( ∑ f, hidden b parent f · Wr[f, g]  +  ∑ f, hidden b child f · Wr[512 + f, g]  +  br[g] ) 0,

  the second layer applied to the two hidden rows laid side by side, the upper half of `Wr` meeting the parent's
  row and the lower half the child's. A pair's word names its row read as a signed integer and clamped into
  `[0, 1023]` (`rowOf`); on words already in that range it is the word's own value.

  Two laws about finite sums of extended reals join the two programs to this form: a sum over 1024 terms is the
  sum over its first 512 plus the sum over its last 512, and a sum against an indicator of one position is the term at
  that position (zero times anything, the infinities included, is zero on the extended reals). Neither needs the
  terms to be finite.
-/
import Idealize.ShloMosaic.PureOps.Ideal
import Idealize.ShloMosaic.PureOps.Ideal.Laws
import Idealize.ShloMosaic.Lib.ValueIdx

noncomputable section

namespace Cert.PairSpec

open Idealize.ShloMosaic Idealize.ShloMosaic.ValueIdx

/-- The shapes of the six arguments and of the result, as literals. -/
abbrev SX : Shape := ⟨3, ![8, 1024, 1024]⟩
abbrev SP : Shape := ⟨3, ![8, 4096, 2]⟩
abbrev SW : Shape := ⟨2, ![1024, 512]⟩
abbrev SB : Shape := ⟨1, ![512]⟩
abbrev SO : Shape := ⟨3, ![8, 4096, 512]⟩

/-- The span row a pair's word names: the word read as a signed integer, clamped into `[0, 1023]`. -/
def rowOf (w : BitVec 32) : Fin 1024 := ⟨min w.toInt.toNat 1023, by omega⟩

/-- On a word whose signed value already lies in `[0, 1023]` the row is the word's value. -/
theorem rowOf_val_of_inRange (w : BitVec 32) (h0 : 0 ≤ w.toInt) (h1 : w.toInt ≤ 1023) : (rowOf w).val = w.toNat := by
  have e := BitVec.toInt_eq_toNat_cond w
  have hw := w.isLt
  show min w.toInt.toNat 1023 = w.toNat
  split at e <;> omega

/-- Position `f` of the upper half of the 1024 rows of `Wr`, and of the lower half. -/
def topHalf (f : Fin 512) : Fin 1024 := ⟨f.val, by omega⟩
def botHalf (f : Fin 512) : Fin 1024 := ⟨512 + f.val, by omega⟩

/-- The first layer at batch `b`, span row `s`, column `f`. -/
def hidden (x : SX.Idx → EReal) (W1 : SW.Idx → EReal) (b1 : SB.Idx → EReal) (b : Fin 8) (s : Fin 1024) (f : Fin 512) : EReal :=
  max (∑ d : Fin 1024, x (ix3 b s d) * W1 (ix2 d f) + b1 (ix1 f)) 0

/-- The result at batch `b`, pair `p`, column `g`. -/
def pairOut (x : SX.Idx → EReal) (P : SP.Idx → BitVec 32) (W1 : SW.Idx → EReal) (b1 : SB.Idx → EReal)
    (Wr : SW.Idx → EReal) (br : SB.Idx → EReal) (b : Fin 8) (p : Fin 4096) (g : Fin 512) : EReal :=
  max ((∑ f : Fin 512, hidden x W1 b1 b (rowOf (P (ix3 b p (0 : Fin 2)))) f * Wr (ix2 (topHalf f) g))
      + (∑ f : Fin 512, hidden x W1 b1 b (rowOf (P (ix3 b p (1 : Fin 2)))) f * Wr (ix2 (botHalf f) g))
      + br (ix1 g)) 0

/-- The whole result array as one function of the six argument arrays. -/
def G (x : SX.Idx → EReal) (P : SP.Idx → BitVec 32) (W1 : SW.Idx → EReal) (b1 : SB.Idx → EReal)
    (Wr : SW.Idx → EReal) (br : SB.Idx → EReal) : SO.Idx → EReal :=
  fun j => pairOut x P W1 b1 Wr br ⟨(j 0).val, (j 0).isLt⟩ ⟨(j 1).val, (j 1).isLt⟩ ⟨(j 2).val, (j 2).isLt⟩

theorem G_ix3 (x : SX.Idx → EReal) (P : SP.Idx → BitVec 32) (W1 : SW.Idx → EReal) (b1 : SB.Idx → EReal)
    (Wr : SW.Idx → EReal) (br : SB.Idx → EReal) (b : Fin 8) (p : Fin 4096) (g : Fin 512) :
    G x P W1 b1 Wr br (ix3 b p g) = pairOut x P W1 b1 Wr br b p g := rfl

/-! ## The two laws -/

/-- A sum over 1024 positions is the sum over the first 512 plus the sum over the last 512. -/
theorem sum_halves {M : Type*} [AddCommMonoid M] (a : Fin 1024 → M) :
    ∑ k : Fin 1024, a k = ∑ f : Fin 512, a (topHalf f) + ∑ f : Fin 512, a (botHalf f) := by
  have h := Fin.sum_univ_add (a := 512) (b := 512) (fun k : Fin (512 + 512) => a ⟨k.val, by have := k.isLt; omega⟩)
  have e : (∑ k : Fin 1024, a k) = ∑ k : Fin (512 + 512), a ⟨k.val, by have := k.isLt; omega⟩ := rfl
  rw [e, h]
  rfl

/-- A sum against the indicator of one position `r` is the term at `r`; on the extended reals `0 · v = 0` for
    every `v`, so nothing is asked of the terms. -/
theorem sum_indicator (r : Fin 1024) (v : Fin 1024 → EReal) :
    ∑ s : Fin 1024, (if s = r then (1 : EReal) else 0) * v s = v r := by
  have : ∀ s : Fin 1024, (if s = r then (1 : EReal) else 0) * v s = if s = r then v s else 0 := by
    intro s; split <;> simp
  simp only [this]
  rw [Finset.sum_ite_eq' Finset.univ r v]
  simp

end Cert.PairSpec

end
-- ==== Proof.RefValue.lean ====
/-
  The reference's result, index by index, under the precondition's range of the pair indices.

  The reference takes, for each pair, the hidden rows of its parent and of its child along the span axis — a negative
  index wrapped by the number of spans, an index out of range answered by a fill — lays the two rows side by side and
  applies the second layer. On index words in [0, 1023] the wrap does nothing and the fill is never chosen, so the
  take reads the hidden row the word names; the second layer's sum over the 1024 joined columns is the sum over the
  parent's 512 against the upper half of the weights plus the sum over the child's 512 against the lower half.
-/
import proofs.«424607_j63376537420533_2_alg».proof.Proof.RefRead
import proofs.«424607_j63376537420533_2_alg».proof.Proof.RefStages
import proofs.«424607_j63376537420533_2_alg».proof.Proof.PairSpec
import Idealize.ShloMosaic.Lib.Affine
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.PairSpec

/-- The reference's first layer is the specification's hidden row. -/
theorem hidden_apply (x0 : (⟨S8x1024x1024, .f32⟩ : BufTy).Contents (Elt Ideal)) (x2 : (⟨S1024x512, .f32⟩ : BufTy).Contents (Elt Ideal)) (x3 : (⟨S512, .f32⟩ : BufTy).Contents (Elt Ideal))
    (b : Fin 8) (s : Fin 1024) (f : Fin 512) :
    val_main_v4 (F := Ideal) x0 x2 x3 (ix3 b s f) = PairSpec.hidden x0 x2 x3 b s f := by
  rw [val_main_v4_apply, val_main_v3_apply, val_main_v0_apply, val_main_v2_apply, val_main_v1_apply,
    val_main_call0_v0_apply, val_main_call0_cst_apply]
  unfold PairSpec.hidden
  have e1 : ∀ k : Fin 1024, lidx_main_v0 (ix3 b s f) k = ix3 b s k := fun k => funext fun a => Fin.ext (by
    match a with | ⟨0, _⟩ => rfl | ⟨1, _⟩ => rfl | ⟨2, _⟩ => rfl)
  have e2 : ∀ k : Fin 1024, ridx_main_v0 (ix3 b s f) k = ix2 k f := fun k => funext fun a => Fin.ext (by
    match a with | ⟨0, _⟩ => rfl | ⟨1, _⟩ => rfl)
  have e3 : idx_main_v1 (idx_main_v2 (ix3 b s f)) = ix1 f := funext fun a => Fin.ext (by
    match a with | ⟨0, _⟩ => rfl)
  simp only [e1, e2, e3]
  show max (_ + _) (Ideal.ofBits .f32 0x00000000#32) = _
  rw [Ideal.ofBits_zero_f32]

/-- The index column 0 of the pair array, laid out as the gather's start indices. -/
theorem col0_apply (x1 : (⟨S8x4096x2, .i32⟩ : BufTy).Contents (Elt Ideal)) (b : Fin 8) (p : Fin 4096) :
    val_main_v9 (F := Ideal) x1 (ix3 b p (0 : Fin 1)) = x1 (ix3 b p (0 : Fin 2)) := by
  rw [val_main_v9_apply, val_main_v6_apply, val_main_v5_apply]
  refine congrArg x1 (funext fun a => Fin.ext ?_)
  have hp : p.val < 4096 := p.isLt
  match a with
  | ⟨0, _⟩ => show (b.val * 4096 + p.val) / 4096 = b.val; omega
  | ⟨1, _⟩ => show (b.val * 4096 + p.val) / 1 % 4096 = p.val; omega
  | ⟨2, _⟩ => rfl

/-- On a word in range the wrap of a negative index does nothing: the start index is the word. -/
theorem start0_apply (x1 : (⟨S8x4096x2, .i32⟩ : BufTy).Contents (Elt Ideal)) (hin : ∀ i, 0 ≤ (x1 i).toInt ∧ (x1 i).toInt ≤ 1023) (b : Fin 8) (p : Fin 4096) :
    val_main_call1_v4 (F := Ideal) x1 (ix3 b p (0 : Fin 1)) = x1 (ix3 b p (0 : Fin 2)) := by
  rw [val_main_call1_v4_apply, val_main_call1_v1_apply, col0_apply, val_main_call1_v0_apply, val_main_call1_c_apply]
  have hz : (0#32 : BitVec 32).toInt = 0 := by decide
  have hlt : IntOp.cmpi .slt (x1 (ix3 b p (0 : Fin 2))) (0#32 : BitVec 32) = 0#1 :=
    eq_zero_of_ne_one (fun h1 => by have := (IntOp.cmpi_slt).mp h1; rw [hz] at this; have := (hin (ix3 b p (0 : Fin 2))).1; omega)
  rw [hlt]
  exact select_zero _ _

/-- … and the in-range flag is set. -/
theorem flag0_apply (x1 : (⟨S8x4096x2, .i32⟩ : BufTy).Contents (Elt Ideal)) (hin : ∀ i, 0 ≤ (x1 i).toInt ∧ (x1 i).toInt ≤ 1023) (b : Fin 8) (p : Fin 4096) (f : Fin 512) :
    val_main_call1_v13 (F := Ideal) x1 (ix3 b p f) = 1#1 := by
  rw [val_main_call1_v13_apply]
  have ei : idx_main_call1_v13 (ix3 b p f) = ix2 b p := funext fun a => Fin.ext (by match a with | ⟨0, _⟩ => rfl | ⟨1, _⟩ => rfl)
  rw [ei]
  unfold val_main_call1_v11
  rw [show val_main_call1_c_3 (F := Ideal) = constantI S_ 1 1#1 from rfl, Stages.reduce_and_apply,
    val_main_call1_v10_apply, val_main_call1_v6_apply, val_main_call1_v9_apply, start0_apply x1 hin,
    val_main_call1_v5_apply, val_main_call1_c_2_apply, val_main_call1_v8_apply, val_main_call1_v7_apply, val_main_call1_c_1_apply]
  have hz : (0#32 : BitVec 32).toInt = 0 := by decide
  have hm : (1023#32 : BitVec 32).toInt = 1023 := by decide
  have h1 : IntOp.cmpi .sge (x1 (ix3 b p (0 : Fin 2))) (0#32 : BitVec 32) = 1#1 :=
    (IntOp.cmpi_sge).mpr (by rw [hz]; exact (hin _).1)
  have h2 : IntOp.cmpi .sle (x1 (ix3 b p (0 : Fin 2))) (1023#32 : BitVec 32) = 1#1 :=
    (IntOp.cmpi_sle).mpr (by rw [hm]; exact (hin _).2)
  rw [h1, h2]
  rfl

/-- So the take along the span axis reads the hidden row the word names. -/
theorem take0_apply (x0 : (⟨S8x1024x1024, .f32⟩ : BufTy).Contents (Elt Ideal)) (x1 : (⟨S8x4096x2, .i32⟩ : BufTy).Contents (Elt Ideal)) (x2 : (⟨S1024x512, .f32⟩ : BufTy).Contents (Elt Ideal)) (x3 : (⟨S512, .f32⟩ : BufTy).Contents (Elt Ideal)) (hin : ∀ i, 0 ≤ (x1 i).toInt ∧ (x1 i).toInt ≤ 1023) (b : Fin 8) (p : Fin 4096) (f : Fin 512) :
    val_main_v10 (F := Ideal) x0 x1 x2 x3 (ix3 b p f)
      = PairSpec.hidden x0 x2 x3 b (rowOf (x1 (ix3 b p (0 : Fin 2)))) f := by
  rw [val_main_v10_apply, flag0_apply x1 hin, select_one]
  unfold val_main_call1_v12
  simp only [Stages.gather_apply, start0_apply x1 hin]
  exact hidden_apply x0 x2 x3 b (rowOf (x1 (ix3 b p (0 : Fin 2)))) f

/-- The index column 1 of the pair array, laid out as the gather's start indices. -/
theorem col1_apply (x1 : (⟨S8x4096x2, .i32⟩ : BufTy).Contents (Elt Ideal)) (b : Fin 8) (p : Fin 4096) :
    val_main_v11 (F := Ideal) x1 (ix3 b p (0 : Fin 1)) = x1 (ix3 b p (1 : Fin 2)) := by
  rw [val_main_v11_apply, val_main_v8_apply, val_main_v7_apply]
  refine congrArg x1 (funext fun a => Fin.ext ?_)
  have hp : p.val < 4096 := p.isLt
  match a with
  | ⟨0, _⟩ => show (b.val * 4096 + p.val) / 4096 = b.val; omega
  | ⟨1, _⟩ => show (b.val * 4096 + p.val) / 1 % 4096 = p.val; omega
  | ⟨2, _⟩ => rfl

/-- On a word in range the wrap of a negative index does nothing: the start index is the word. -/
theorem start1_apply (x1 : (⟨S8x4096x2, .i32⟩ : BufTy).Contents (Elt Ideal)) (hin : ∀ i, 0 ≤ (x1 i).toInt ∧ (x1 i).toInt ≤ 1023) (b : Fin 8) (p : Fin 4096) :
    val_main_call2_v4 (F := Ideal) x1 (ix3 b p (0 : Fin 1)) = x1 (ix3 b p (1 : Fin 2)) := by
  rw [val_main_call2_v4_apply, val_main_call2_v1_apply, col1_apply, val_main_call2_v0_apply, val_main_call2_c_apply]
  have hz : (0#32 : BitVec 32).toInt = 0 := by decide
  have hlt : IntOp.cmpi .slt (x1 (ix3 b p (1 : Fin 2))) (0#32 : BitVec 32) = 0#1 :=
    eq_zero_of_ne_one (fun h1 => by have := (IntOp.cmpi_slt).mp h1; rw [hz] at this; have := (hin (ix3 b p (1 : Fin 2))).1; omega)
  rw [hlt]
  exact select_zero _ _

/-- … and the in-range flag is set. -/
theorem flag1_apply (x1 : (⟨S8x4096x2, .i32⟩ : BufTy).Contents (Elt Ideal)) (hin : ∀ i, 0 ≤ (x1 i).toInt ∧ (x1 i).toInt ≤ 1023) (b : Fin 8) (p : Fin 4096) (f : Fin 512) :
    val_main_call2_v13 (F := Ideal) x1 (ix3 b p f) = 1#1 := by
  rw [val_main_call2_v13_apply]
  have ei : idx_main_call2_v13 (ix3 b p f) = ix2 b p := funext fun a => Fin.ext (by match a with | ⟨0, _⟩ => rfl | ⟨1, _⟩ => rfl)
  rw [ei]
  unfold val_main_call2_v11
  rw [show val_main_call2_c_3 (F := Ideal) = constantI S_ 1 1#1 from rfl, Stages.reduce_and_apply,
    val_main_call2_v10_apply, val_main_call2_v6_apply, val_main_call2_v9_apply, start1_apply x1 hin,
    val_main_call2_v5_apply, val_main_call2_c_2_apply, val_main_call2_v8_apply, val_main_call2_v7_apply, val_main_call2_c_1_apply]
  have hz : (0#32 : BitVec 32).toInt = 0 := by decide
  have hm : (1023#32 : BitVec 32).toInt = 1023 := by decide
  have h1 : IntOp.cmpi .sge (x1 (ix3 b p (1 : Fin 2))) (0#32 : BitVec 32) = 1#1 :=
    (IntOp.cmpi_sge).mpr (by rw [hz]; exact (hin _).1)
  have h2 : IntOp.cmpi .sle (x1 (ix3 b p (1 : Fin 2))) (1023#32 : BitVec 32) = 1#1 :=
    (IntOp.cmpi_sle).mpr (by rw [hm]; exact (hin _).2)
  rw [h1, h2]
  rfl

/-- So the take along the span axis reads the hidden row the word names. -/
theorem take1_apply (x0 : (⟨S8x1024x1024, .f32⟩ : BufTy).Contents (Elt Ideal)) (x1 : (⟨S8x4096x2, .i32⟩ : BufTy).Contents (Elt Ideal)) (x2 : (⟨S1024x512, .f32⟩ : BufTy).Contents (Elt Ideal)) (x3 : (⟨S512, .f32⟩ : BufTy).Contents (Elt Ideal)) (hin : ∀ i, 0 ≤ (x1 i).toInt ∧ (x1 i).toInt ≤ 1023) (b : Fin 8) (p : Fin 4096) (f : Fin 512) :
    val_main_v12 (F := Ideal) x0 x1 x2 x3 (ix3 b p f)
      = PairSpec.hidden x0 x2 x3 b (rowOf (x1 (ix3 b p (1 : Fin 2)))) f := by
  rw [val_main_v12_apply, flag1_apply x1 hin, select_one]
  unfold val_main_call2_v12
  simp only [Stages.gather_apply, start1_apply x1 hin]
  exact hidden_apply x0 x2 x3 b (rowOf (x1 (ix3 b p (1 : Fin 2)))) f

/-- The two taken rows side by side: column `f` of the upper half is the parent's, of the lower half the child's. -/
theorem joined_top (x0 : (⟨S8x1024x1024, .f32⟩ : BufTy).Contents (Elt Ideal)) (x1 : (⟨S8x4096x2, .i32⟩ : BufTy).Contents (Elt Ideal)) (x2 : (⟨S1024x512, .f32⟩ : BufTy).Contents (Elt Ideal)) (x3 : (⟨S512, .f32⟩ : BufTy).Contents (Elt Ideal)) (hin : ∀ i, 0 ≤ (x1 i).toInt ∧ (x1 i).toInt ≤ 1023) (b : Fin 8) (p : Fin 4096) (f : Fin 512) :
    val_main_v13 (F := Ideal) x0 x1 x2 x3 (ix3 b p (topHalf f))
      = PairSpec.hidden x0 x2 x3 b (rowOf (x1 (ix3 b p (0 : Fin 2)))) f := by
  unfold val_main_v13
  exact (Stages.concat_left _ _ b p f).trans (take0_apply x0 x1 x2 x3 hin b p f)
theorem joined_bot (x0 : (⟨S8x1024x1024, .f32⟩ : BufTy).Contents (Elt Ideal)) (x1 : (⟨S8x4096x2, .i32⟩ : BufTy).Contents (Elt Ideal)) (x2 : (⟨S1024x512, .f32⟩ : BufTy).Contents (Elt Ideal)) (x3 : (⟨S512, .f32⟩ : BufTy).Contents (Elt Ideal)) (hin : ∀ i, 0 ≤ (x1 i).toInt ∧ (x1 i).toInt ≤ 1023) (b : Fin 8) (p : Fin 4096) (f : Fin 512) :
    val_main_v13 (F := Ideal) x0 x1 x2 x3 (ix3 b p (botHalf f))
      = PairSpec.hidden x0 x2 x3 b (rowOf (x1 (ix3 b p (1 : Fin 2)))) f := by
  unfold val_main_v13
  exact (Stages.concat_right _ _ b p f).trans (take1_apply x0 x1 x2 x3 hin b p f)

/-- THE REFERENCE'S RESULT is the specification's, wherever the pair indices are in range. -/
theorem ref_value (x0 : (⟨S8x1024x1024, .f32⟩ : BufTy).Contents (Elt Ideal)) (x1 : (⟨S8x4096x2, .i32⟩ : BufTy).Contents (Elt Ideal)) (x2 : (⟨S1024x512, .f32⟩ : BufTy).Contents (Elt Ideal)) (x3 : (⟨S512, .f32⟩ : BufTy).Contents (Elt Ideal)) (x4 : (⟨S1024x512, .f32⟩ : BufTy).Contents (Elt Ideal)) (x5 : (⟨S512, .f32⟩ : BufTy).Contents (Elt Ideal)) (hin : ∀ i, 0 ≤ (x1 i).toInt ∧ (x1 i).toInt ≤ 1023) :
    val_main_v18 (F := Ideal) x0 x1 x2 x3 x4 x5 = G x0 x1 x2 x3 x4 x5 := by
  funext j
  obtain ⟨b, p, g, rfl⟩ : ∃ (b : Fin 8) (p : Fin 4096) (g : Fin 512), j = ix3 b p g := ⟨j 0, j 1, j 2, eq_ix3 j⟩
  rw [G_ix3, val_main_v18_apply, val_main_v17_apply, val_main_v14_apply, val_main_v16_apply, val_main_v15_apply,
    val_main_call3_v0_apply, val_main_call3_cst_apply]
  unfold pairOut
  have e1 : ∀ k : Fin 1024, lidx_main_v14 (ix3 b p g) k = ix3 b p k := fun k => funext fun a => Fin.ext (by
    match a with | ⟨0, _⟩ => rfl | ⟨1, _⟩ => rfl | ⟨2, _⟩ => rfl)
  have e2 : ∀ k : Fin 1024, ridx_main_v14 (ix3 b p g) k = ix2 k g := fun k => funext fun a => Fin.ext (by
    match a with | ⟨0, _⟩ => rfl | ⟨1, _⟩ => rfl)
  have e3 : idx_main_v15 (idx_main_v16 (ix3 b p g)) = ix1 g := funext fun a => Fin.ext (by
    match a with | ⟨0, _⟩ => rfl)
  simp only [e1, e2, e3]
  rw [sum_halves (fun k : Fin 1024 => val_main_v13 (F := Ideal) x0 x1 x2 x3 (ix3 b p k) * x4 (ix2 k g))]
  simp only [joined_top x0 x1 x2 x3 hin, joined_bot x0 x1 x2 x3 hin]
  show max (_ + _ + _) (Ideal.ofBits .f32 0x00000000#32) = _
  rw [Ideal.ofBits_zero_f32]

end Cert.ReferenceIdeal.RefValue

end
-- ==== Proof.KPieces.lean ====
/-
  What one run of the kernel's body leaves behind, as pure functions of what it loaded.

  At a grid point with pair-tile number 0 the body first fills the two carried tables from the batch's span block,
  the first-layer weights and bias and the two halves of the second-layer weights, and then computes the output tile
  from the pair indices, the two tables it has just stored, and the output bias. At the other points it stores nothing
  into the tables and computes the output tile from the tables as the point before left them. Each store covers its
  whole buffer, so what a buffer holds afterwards is the stored value itself.
-/
import proofs.«424607_j63376537420533_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The all-zero offsets of a whole-buffer access, at each rank met here. -/
theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- At a point that fills the tables, the parent table ends at the body's value for it. -/
theorem scratch0_A (c : Dev nD) (i : grid0.Coords) (arg2 : Memref sig .tc .vmem S1x1024x1024 .f32) (harg2 : arg2.IsWhole) (arg3 : Memref sig .tc .vmem S1x1024x1 .i32) (harg3 : arg3.IsWhole) (arg4 : Memref sig .tc .vmem S1x1024x1 .i32) (harg4 : arg4.IsWhole) (arg5 : Memref sig .tc .vmem S1024x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S1024x512 .bf16) (harg12 : arg12.IsWhole) (hc0 : cond0_0 i) (x0 : Vec F S1x1024x1024 .f32) (x1 : Vec F S1x1024x1 .i32) (x2 : Vec F S1x1024x1 .i32) (x3 : Vec F S1024x512 .f32) (x4 : Vec F S512 .f32) (x5 : Vec F S512x512 .f32) (x6 : Vec F S512x512 .f32) (x7 : Vec F S512 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay2 x0 x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg5.read_unread, harg6.read_unread, harg7.read_unread,
    View.ld_unit_zero (S := S1x1024x1024) hz3, View.ld_unit_zero (S := S1024x512) hz2, View.ld_unit_zero (S := S512) hz1,
    View.ld_unit_zero (S := S512x512) hz2]

/-- … and the child table at the body's value for it. -/
theorem scratch1_A (c : Dev nD) (i : grid0.Coords) (arg2 : Memref sig .tc .vmem S1x1024x1024 .f32) (harg2 : arg2.IsWhole) (arg3 : Memref sig .tc .vmem S1x1024x1 .i32) (harg3 : arg3.IsWhole) (arg4 : Memref sig .tc .vmem S1x1024x1 .i32) (harg4 : arg4.IsWhole) (arg5 : Memref sig .tc .vmem S1024x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S1024x512 .bf16) (harg12 : arg12.IsWhole) (hc0 : cond0_0 i) (x0 : Vec F S1x1024x1024 .f32) (x1 : Vec F S1x1024x1 .i32) (x2 : Vec F S1x1024x1 .i32) (x3 : Vec F S1024x512 .f32) (x4 : Vec F S512 .f32) (x5 : Vec F S512x512 .f32) (x6 : Vec F S512x512 .f32) (x7 : Vec F S512 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 x0 x3 x4 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg5.read_unread, harg6.read_unread, harg8.read_unread,
    View.ld_unit_zero (S := S1x1024x1024) hz3, View.ld_unit_zero (S := S1024x512) hz2, View.ld_unit_zero (S := S512) hz1,
    View.ld_unit_zero (S := S512x512) hz2]

/-- At a point that keeps the tables, the output tile is the body's value over the tables as found. -/
theorem out_B (c : Dev nD) (i : grid0.Coords) (arg2 : Memref sig .tc .vmem S1x1024x1024 .f32) (harg2 : arg2.IsWhole) (arg3 : Memref sig .tc .vmem S1x1024x1 .i32) (harg3 : arg3.IsWhole) (arg4 : Memref sig .tc .vmem S1x1024x1 .i32) (harg4 : arg4.IsWhole) (arg5 : Memref sig .tc .vmem S1024x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S1024x512 .bf16) (harg12 : arg12.IsWhole) (hc0 : ¬cond0_0 i) (x0 : Vec F S1x1024x1024 .f32) (x1 : Vec F S1x1024x1 .i32) (x2 : Vec F S1x1024x1 .i32) (x3 : Vec F S1024x512 .f32) (x4 : Vec F S512 .f32) (x5 : Vec F S512x512 .f32) (x6 : Vec F S512x512 .f32) (x7 : Vec F S512 .f32) (xs0 xs1 : Vec F S1024x512 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1 = k0_pay4 x1 x2 xs0 xs1 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz3]
  simp only [View.readAt_eq_ld, harg3.read_unread, harg4.read_unread, harg9.read_unread, harg11.read_unread, harg12.read_unread,
    View.ld_unit_zero (S := S1x1024x1) hz3, View.ld_unit_zero (S := S1024x512) hz2, View.ld_unit_zero (S := S512) hz1]

/-- At a point that fills the tables, the output tile is the body's value over the tables it has just stored. -/
theorem out_A (c : Dev nD) (i : grid0.Coords) (arg2 : Memref sig .tc .vmem S1x1024x1024 .f32) (harg2 : arg2.IsWhole) (arg3 : Memref sig .tc .vmem S1x1024x1 .i32) (harg3 : arg3.IsWhole) (arg4 : Memref sig .tc .vmem S1x1024x1 .i32) (harg4 : arg4.IsWhole) (arg5 : Memref sig .tc .vmem S1024x512 .f32) (harg5 : arg5.IsWhole) (arg6 : Memref sig .tc .vmem S512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512 .f32) (harg9 : arg9.IsWhole) (arg10 : Memref sig .tc .vmem S1x1024x512 .f32) (harg10 : arg10.IsWhole) (arg11 : Memref sig .tc .vmem S1024x512 .bf16) (harg11 : arg11.IsWhole) (arg12 : Memref sig .tc .vmem S1024x512 .bf16) (harg12 : arg12.IsWhole) (hc0 : cond0_0 i) (x0 : Vec F S1x1024x1024 .f32) (x1 : Vec F S1x1024x1 .i32) (x2 : Vec F S1x1024x1 .i32) (x3 : Vec F S1024x512 .f32) (x4 : Vec F S512 .f32) (x5 : Vec F S512x512 .f32) (x6 : Vec F S512x512 .f32) (x7 : Vec F S512 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x1 x2 (k0_pay2 x0 x3 x4 x5) (k0_pay3 x0 x3 x4 x6) x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread,
    harg7.read_unread, harg8.read_unread, harg9.read_unread,
    View.readCov_unit_zero (S := S1024x512) _ hz2,
    View.ld_unit_zero (S := S1x1024x1024) hz3, View.ld_unit_zero (S := S1x1024x1) hz3, View.ld_unit_zero (S := S1024x512) hz2,
    View.ld_unit_zero (S := S512) hz1, View.ld_unit_zero (S := S512x512) hz2]

end Cert.KernelIdeal.Pieces

end
-- ==== Proof.KPayIdx.lean ====
/-
  The kernel body's four stored values read at one position, at the exact values: the first layer's row, the two
  tables (the hidden rows against the upper and the lower half of the second-layer weights), and the output tile (the
  two table rows a pair names, added to the bias, clipped below at zero). The one-hot rows the body multiplies the
  tables by pick out one table row each: a sum against an indicator is the term at its position.
-/
import proofs.«424607_j63376537420533_2_alg».proof.Proof.Gen.KernelIdeal.Skeleton
import proofs.«424607_j63376537420533_2_alg».proof.Proof.PairSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayIdx

open Cert.KernelIdeal Cert.KernelIdeal.Gen Idealize.ShloMosaic Idealize.ShloMosaic.ValueIdx Cert.PairSpec

/-! ## The two contractions read at a position

Both of the body's matrix products contract the left operand's second axis against the right operand's first: at
output position `(i₀, i₁)` and contraction position `q` the left operand is read at `(i₀, q)` and the right at
`(q, i₁)`, coordinate by coordinate. The product at a position is then the sum over the one contracted coordinate. -/

theorem lhs_big_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_big_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_big_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_big_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The 1024 × 1024 by 1024 × 512 product into the zero accumulator, at row `s`, column `f`. -/
theorem matmul_big_apply {φ₁ φ₂ : FTy} (a : FVec Ideal S1024x1024 φ₁) (b : FVec Ideal S1024x512 φ₂) (s : Fin 1024) (f : Fin 512) :
    matmul (F := Ideal) dot_S1024x1024_S1024x512_S1024x512_1_0_0_1_n_n none a b (constant (F := Ideal) S1024x512 .f32 0x00000000#32) (ix2 s f)
      = ∑ d : Fin 1024, a (ix2 s d) * b (ix2 d f) := by
  refine (Ideal.matmul_constant_zero_apply dot_S1024x1024_S1024x512_S1024x512_1_0_0_1_n_n none a b (ix2 s f)).trans ?_
  rw [← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 s f) ((ValueIdx.contrEquiv1 dot_S1024x1024_S1024x512_S1024x512_1_0_0_1_n_n 1024 rfl rfl).symm k) = ix2 s k := funext fun a => Fin.ext (by
    match a with
    | ⟨0, _⟩ => exact lhs_big_0 _ _
    | ⟨1, _⟩ => exact (lhs_big_1 _ _).trans hk)
  have er : dot_S1024x1024_S1024x512_S1024x512_1_0_0_1_n_n.rhsIdx (ix2 s f) ((ValueIdx.contrEquiv1 dot_S1024x1024_S1024x512_S1024x512_1_0_0_1_n_n 1024 rfl rfl).symm k) = ix2 k f := funext fun a => Fin.ext (by
    match a with
    | ⟨0, _⟩ => exact (rhs_big_0 _ _).trans hk
    | ⟨1, _⟩ => exact rhs_big_1 _ _)
  rw [el, er]

theorem lhs_sq_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_sq_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_sq_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_sq_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The 1024 × 512 by 512 × 512 product into the zero accumulator, at row `s`, column `g`. -/
theorem matmul_sq_apply {φ₁ φ₂ : FTy} (a : FVec Ideal S1024x512 φ₁) (b : FVec Ideal S512x512 φ₂) (s : Fin 1024) (g : Fin 512) :
    matmul (F := Ideal) dot_S1024x512_S512x512_S1024x512_1_0_0_1_n_n none a b (constant (F := Ideal) S1024x512 .f32 0x00000000#32) (ix2 s g)
      = ∑ f : Fin 512, a (ix2 s f) * b (ix2 f g) := by
  refine (Ideal.matmul_constant_zero_apply dot_S1024x512_S512x512_S1024x512_1_0_0_1_n_n none a b (ix2 s g)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 s g) ((ValueIdx.contrEquiv1 dot_S1024x512_S512x512_S1024x512_1_0_0_1_n_n 512 rfl rfl).symm k) = ix2 s k := funext fun a => Fin.ext (by
    match a with
    | ⟨0, _⟩ => exact lhs_sq_0 _ _
    | ⟨1, _⟩ => exact (lhs_sq_1 _ _).trans hk)
  have er : dot_S1024x512_S512x512_S1024x512_1_0_0_1_n_n.rhsIdx (ix2 s g) ((ValueIdx.contrEquiv1 dot_S1024x512_S512x512_S1024x512_1_0_0_1_n_n 512 rfl rfl).symm k) = ix2 k g := funext fun a => Fin.ext (by
    match a with
    | ⟨0, _⟩ => exact (rhs_sq_0 _ _).trans hk
    | ⟨1, _⟩ => exact rhs_sq_1 _ _)
  rw [el, er]

/-! ## The first layer and the two tables -/

/-- The bias row laid under every row of a 1024 × 512 block, at row `s`, column `f`. -/
theorem bias_row_apply (b : Vec Ideal S512 .f32) (h1 : S512.ShapeCasts S1x512) (h2 : S1x512.Broadcasts S1024x512)
    (s : Fin 1024) (f : Fin 512) :
    broadcastTo S1024x512 (shapeCast S1x512 b h1) h2 (ix2 s f) = b (ix1 f) :=
  (broadcastTo_1b_ab_apply (shapeCast S1x512 b h1) h2 s f).trans (shapeCast_a_1a_apply b h1 (0 : Fin 1) f)

/-- A block plus the bias row, clipped below at the zero splat, at row `s`, column `f`. -/
theorem relu_bias_apply (m : FVec Ideal S1024x512 .f32) (b : Vec Ideal S512 .f32) (h1 : S512.ShapeCasts S1x512)
    (h2 : S1x512.Broadcasts S1024x512) (s : Fin 1024) (f : Fin 512) :
    maximumf (addf m (broadcastTo S1024x512 (shapeCast S1x512 b h1) h2))
        (broadcast S1024x512 (Scalar.ofBits (F := Ideal) .f32 0x00000000#32)) (ix2 s f)
      = max (m (ix2 s f) + b (ix1 f)) 0 := by
  refine (maximumf_apply _ _ _).trans ?_
  refine congrArg₂ max ?_ Ideal.ofBits_zero_f32
  refine (addf_apply _ _ _).trans ?_
  exact congrArg (m (ix2 s f) + ·) (bias_row_apply b h1 h2 s f)

/-- The first layer's row `s`, column `f`, of the one span block loaded. -/
theorem pay1_apply (v31 : Vec Ideal S1x1024x1024 .f32) (v34 : Vec Ideal S1024x512 .f32) (v37 : Vec Ideal S512 .f32)
    (s : Fin 1024) (f : Fin 512) :
    k0_pay1 (F := Ideal) v31 v34 v37 (ix2 s f)
      = max (∑ d : Fin 1024, v31 (ix3 (0 : Fin 1) s d) * v34 (ix2 d f) + v37 (ix1 f)) 0 := by
  unfold k0_pay1
  refine (truncf_apply (φ := .f32) (ψ := .bf16) _ _ _).trans ?_
  refine (relu_bias_apply _ v37 _ _ s f).trans ?_
  refine congrArg (fun t => max (t + v37 (ix1 f)) 0) ?_
  refine (matmul_big_apply _ _ s f).trans ?_
  refine Finset.sum_congr rfl fun d _ => ?_
  refine congrArg₂ (· * ·) ?_ ?_
  · refine (truncf_apply (φ := .f32) (ψ := .bf16) _ _ _).trans ?_
    exact shapeCast_1ab_ab_apply v31 _ s d
  · exact truncf_apply (φ := .f32) (ψ := .bf16) _ _ _

/-- The parent table at row `s`, column `g`: the hidden row against the loaded 512 × 512 weights. -/
theorem pay2_apply (v31 : Vec Ideal S1x1024x1024 .f32) (v34 : Vec Ideal S1024x512 .f32) (v37 : Vec Ideal S512 .f32)
    (v44 : Vec Ideal S512x512 .f32) (s : Fin 1024) (g : Fin 512) :
    k0_pay2 (F := Ideal) v31 v34 v37 v44 (ix2 s g)
      = ∑ f : Fin 512, k0_pay1 (F := Ideal) v31 v34 v37 (ix2 s f) * v44 (ix2 f g) := by
  unfold k0_pay2
  refine (congrFun (shapeCast_self _ _) (ix2 s g)).trans ?_
  refine (truncf_apply (φ := .f32) (ψ := .bf16) _ _ _).trans ?_
  refine (matmul_sq_apply _ _ s g).trans ?_
  refine Finset.sum_congr rfl fun f _ => ?_
  refine congrArg (k0_pay1 (F := Ideal) v31 v34 v37 (ix2 s f) * ·) ?_
  refine (truncf_apply (φ := .f32) (ψ := .bf16) _ _ _).trans ?_
  exact congrFun (shapeCast_self v44 _) (ix2 f g)

/-- The child table likewise. -/
theorem pay3_apply (v31 : Vec Ideal S1x1024x1024 .f32) (v34 : Vec Ideal S1024x512 .f32) (v37 : Vec Ideal S512 .f32)
    (v47 : Vec Ideal S512x512 .f32) (s : Fin 1024) (g : Fin 512) :
    k0_pay3 (F := Ideal) v31 v34 v37 v47 (ix2 s g)
      = ∑ f : Fin 512, k0_pay1 (F := Ideal) v31 v34 v37 (ix2 s f) * v47 (ix2 f g) := by
  unfold k0_pay3
  refine (congrFun (shapeCast_self _ _) (ix2 s g)).trans ?_
  refine (truncf_apply (φ := .f32) (ψ := .bf16) _ _ _).trans ?_
  refine (matmul_sq_apply _ _ s g).trans ?_
  refine Finset.sum_congr rfl fun f _ => ?_
  refine congrArg (k0_pay1 (F := Ideal) v31 v34 v37 (ix2 s f) * ·) ?_
  refine (truncf_apply (φ := .f32) (ψ := .bf16) _ _ _).trans ?_
  exact congrFun (shapeCast_self v47 _) (ix2 f g)

/-! ## The output tile

A pair's index word is laid across a row of 1024 columns and compared with the column's number; the bit, widened
and read as a signed integer, is `1` in the column the word names and `0` in every other. Multiplying a table by
that row keeps the one table row the word names. -/

/-- A column `[a, 1]` laid across `b` columns reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A word compared for equality with the word of a number below `2 ^ 32`: the bit says whether the number is the
    word's value. -/
theorem cmpi_eq_ofNat (w : BitVec 32) (n : ℕ) (hn : n < 2 ^ 32) :
    IntOp.cmpi .eq w (BitVec.ofNat 32 n) = if n = w.toNat then 1#1 else 0#1 := by
  show BitVec.ofBool (w == BitVec.ofNat 32 n) = _
  by_cases h : n = w.toNat
  · have e : BitVec.ofNat 32 n = w :=
      BitVec.eq_of_toNat_eq (by rw [BitVec.toNat_ofNat, h]; exact Nat.mod_eq_of_lt w.isLt)
    rw [if_pos h, e]; simp
  · have ne : ¬ w = BitVec.ofNat 32 n :=
      fun e => h (by rw [e, BitVec.toNat_ofNat]; exact (Nat.mod_eq_of_lt hn).symm)
    have hb : (w == BitVec.ofNat 32 n) = false := beq_eq_false_iff_ne.mpr ne
    rw [if_neg h, hb]; rfl

/-- One entry of a one-hot row: `1` in the column the word names, `0` elsewhere. -/
theorem onehot_entry (w : BitVec 32) (h : w.toNat < 1024) (d : Fin 1024) :
    FloatOps.sitofp (F := Ideal) .f32 ((IntOp.cmpi .eq w (BitVec.ofNat 32 d.val)).setWidth 32)
      = if d = ⟨w.toNat, h⟩ then (1 : EReal) else 0 := by
  rw [cmpi_eq_ofNat w d.val (by have := d.isLt; omega)]
  by_cases hd : d = ⟨w.toNat, h⟩
  · have hv : d.val = w.toNat := congrArg Fin.val hd
    rw [if_pos hv, if_pos hd]
    show ((((1#1 : BitVec 1).setWidth 32).toInt : ℝ) : EReal) = 1
    have e : ((1#1 : BitVec 1).setWidth 32).toInt = 1 := by decide
    rw [e]; simp
  · have hv : ¬ d.val = w.toNat := fun e => hd (Fin.ext e)
    rw [if_neg hv, if_neg hd]
    show ((((0#1 : BitVec 1).setWidth 32).toInt : ℝ) : EReal) = 0
    have e : ((0#1 : BitVec 1).setWidth 32).toInt = 0 := by decide
    rw [e]; simp

/-- The one-hot rows the body builds from an index column, at row `p`, column `d`. -/
theorem onehot_apply (v3 : Vec Ideal S1x1024x1 .i32)
    (h3 : ∀ p : Fin 1024, (v3 (ix3 (0 : Fin 1) p (0 : Fin 1)) : BitVec 32).toNat < 1024)
    (hc : S1x1024x1.ShapeCasts S1024x1) (hb : S1024x1.Broadcasts S1024x1024) (hi : S1024x1024.Iotas .tc 32 [1])
    (hn : 1 < 32) (hl : FTy.bits .bf16 < FTy.bits .f32) (p d : Fin 1024) :
    (truncf .bf16 (sitofp (F := Ideal) .f32 (extui 32 (cmpi .eq (broadcastTo S1024x1024 (shapeCast S1024x1 v3 hc) hb)
        (iota .tc S1024x1024 32 [1] hi)) hn)) hl : FVec Ideal S1024x1024 .bf16) (ix2 p d)
      = if d = ⟨(v3 (ix3 (0 : Fin 1) p (0 : Fin 1)) : BitVec 32).toNat, h3 p⟩ then (1 : EReal) else 0 := by
  have e1 : broadcastTo S1024x1024 (shapeCast S1024x1 v3 hc) hb (ix2 p d) = v3 (ix3 (0 : Fin 1) p (0 : Fin 1)) :=
    (broadcastTo_a1_ab_apply (shapeCast S1024x1 v3 hc) hb p d).trans (shapeCast_1ab_ab_apply v3 hc p (0 : Fin 1))
  have e2 : iota .tc S1024x1024 32 [1] hi (ix2 p d) = BitVec.ofNat 32 d.val :=
    iota_single_apply .tc S1024x1024 32 1 hi (ix2 p d)
  show FloatOps.sitofp (F := Ideal) .f32 ((IntOp.cmpi .eq (broadcastTo S1024x1024 (shapeCast S1024x1 v3 hc) hb (ix2 p d))
      (iota .tc S1024x1024 32 [1] hi (ix2 p d))).setWidth 32) = _
  rw [e1, e2]
  exact onehot_entry _ (h3 p) d

/-- A table multiplied on the left by those one-hot rows, at row `p`, column `g`: the table's row the word names. -/
theorem onehot_matmul_apply (v3 : Vec Ideal S1x1024x1 .i32) (T : FVec Ideal S1024x512 .bf16)
    (h3 : ∀ p : Fin 1024, (v3 (ix3 (0 : Fin 1) p (0 : Fin 1)) : BitVec 32).toNat < 1024)
    (hc : S1x1024x1.ShapeCasts S1024x1) (hb : S1024x1.Broadcasts S1024x1024) (hi : S1024x1024.Iotas .tc 32 [1])
    (hn : 1 < 32) (hl : FTy.bits .bf16 < FTy.bits .f32) (p : Fin 1024) (g : Fin 512) :
    matmul (F := Ideal) dot_S1024x1024_S1024x512_S1024x512_1_0_0_1_n_n none
        (truncf .bf16 (sitofp (F := Ideal) .f32 (extui 32 (cmpi .eq (broadcastTo S1024x1024 (shapeCast S1024x1 v3 hc) hb)
          (iota .tc S1024x1024 32 [1] hi)) hn)) hl)
        T (constant (F := Ideal) S1024x512 .f32 0x00000000#32) (ix2 p g)
      = T (ix2 ⟨(v3 (ix3 (0 : Fin 1) p (0 : Fin 1)) : BitVec 32).toNat, h3 p⟩ g) := by
  refine (matmul_big_apply (φ₁ := .bf16) (φ₂ := .bf16) _ T p g).trans ?_
  refine (Finset.sum_congr rfl fun d _ =>
    congrArg (· * T (ix2 d g)) (onehot_apply v3 h3 hc hb hi hn hl p d)).trans ?_
  exact sum_indicator ⟨_, h3 p⟩ (fun d => T (ix2 d g))

/-- The output tile at pair `p` of the tile, column `g`: the parent table's row named by the pair's first index plus
    the child table's row named by its second, plus the bias, clipped below at zero — for index words below 1024. -/
theorem pay4_apply (v3 v5 : Vec Ideal S1x1024x1 .i32) (v18 v20 : Vec Ideal S1024x512 .bf16) (v23 : Vec Ideal S512 .f32)
    (h3 : ∀ p : Fin 1024, (v3 (ix3 (0 : Fin 1) p (0 : Fin 1)) : BitVec 32).toNat < 1024)
    (h5 : ∀ p : Fin 1024, (v5 (ix3 (0 : Fin 1) p (0 : Fin 1)) : BitVec 32).toNat < 1024)
    (p : Fin 1024) (g : Fin 512) :
    k0_pay4 (F := Ideal) v3 v5 v18 v20 v23 (ix3 (0 : Fin 1) p g)
      = max (v18 (ix2 ⟨(v3 (ix3 (0 : Fin 1) p (0 : Fin 1)) : BitVec 32).toNat, h3 p⟩ g)
            + v20 (ix2 ⟨(v5 (ix3 (0 : Fin 1) p (0 : Fin 1)) : BitVec 32).toNat, h5 p⟩ g)
            + v23 (ix1 g)) 0 := by
  unfold k0_pay4
  refine (shapeCast_ab_1ab_apply _ _ (0 : Fin 1) p g).trans ?_
  refine (relu_bias_apply _ v23 _ _ p g).trans ?_
  refine congrArg (fun t => max (t + v23 (ix1 g)) 0) ?_
  refine (addf_apply _ _ _).trans ?_
  refine congrArg₂ (· + ·) ?_ ?_
  · exact onehot_matmul_apply v3 v18 h3 _ _ _ _ _ p g
  · exact onehot_matmul_apply v5 v20 h5 _ _ _ _ _ p g

end Cert.KernelIdeal.PayIdx

end
-- ==== Proof.KHost.lean ====
/-
  What the host operations in front of the kernel's region leave in the four arrays the region reads beside the
  arguments: the two index columns of the pair array, each clipped into [0, 1023] — a clipped word's value is the row
  the pair names —, and the upper and the lower 512 rows of the second-layer weights.
-/
import proofs.«424607_j63376537420533_2_alg».proof.Proof.Gen.KernelIdeal.Frame
import proofs.«424607_j63376537420533_2_alg».proof.Proof.PairSpec
import Idealize.ShloMosaic.Lib.Pipeline.Value
import Idealize.ShloMosaic.Lib.ValueIdx
import Idealize.ShloMosaic.Lib.ValueLayout
import Idealize.ShloMosaic.Lib.WordArith
import Idealize.ShloMosaic.Lib.StableHlo.Run

noncomputable section

namespace Cert.KernelIdeal.Host

open Cert.KernelIdeal Cert.KernelIdeal.Gen Idealize.ShloMosaic Idealize.ShloMosaic.TcCoe Idealize.ShloMosaic.ValueIdx Idealize.SL.Sem Cert.PairSpec

variable {F : FTy → Type} [FloatOps F]
variable (m : (ℓ : Loc nD τ sig) → Buf (Elt F) ℓ)

/-- A word clipped below at 0 and above at 1023, both read signed, has as its value the row the word names. -/
theorem toNat_clip (w : BitVec 32) : (IntOp.minsi 1023#32 (IntOp.maxsi 0#32 w)).toNat = (rowOf w).val := by
  -- the lower clip is the signed reading cut off at zero, a value below 2³¹
  have hm := WordArith.toNat_maxsi_zero w
  have e := BitVec.toInt_eq_toNat_cond w
  have hw := w.isLt
  have hc : (IntOp.maxsi 0#32 w).toNat < 2 ^ 31 := by
    rw [hm]; split at e <;> omega
  have hx : (1023#32 : BitVec 32).toNat < 2 ^ 31 := by decide
  -- so the upper clip, a signed minimum of two such words, is the minimum of their values
  rw [WordArith.toNat_minsi_of_lt 1023#32 (IntOp.maxsi 0#32 w) hx hc, hm]
  show min (1023#32 : BitVec 32).toNat w.toInt.toNat = min w.toInt.toNat 1023
  rw [show (1023#32 : BitVec 32).toNat = 1023 by decide]
  exact Nat.min_comm _ _

/-- One column of the pair array — the slice at offset `o` on the last axis —, laid out as [8, 4096], clipped below at the
    broadcast 0 and above at the broadcast 1023, and given its unit axis back: read at batch `b`, pair `p`, its value is
    the row that the pair's word in that column names. -/
theorem clippedColumn_apply (x : IVec S8x4096x2 32) (o : Nat) (k : Fin 2) (hk : k.val = o)
    (h : S8x4096x2.Slices ![0, 0, o] S8x4096x1) (b : Fin 8) (p : Fin 4096) :
    ((broadcastInDim S8x4096x1 ![0, 1] bcast_S8x4096_S8x4096x1_0_1
        (minsi (broadcastInDim S8x4096 ![] bcast_S_S8x4096 (constantI S_ 32 1023#32))
          (maxsi (broadcastInDim S8x4096 ![] bcast_S_S8x4096 (constantI S_ 32 0#32))
            (shapeCast S8x4096 (extractStridedSlice S8x4096x1 ![0, 0, o] x h) shapeCasts_S8x4096x1_S8x4096)))
        : IVec S8x4096x1 32) (ix3 b p (0 : Fin 1))).toNat
      = (rowOf (x (ix3 b p k))).val := by
  -- the word the slice, the reshape and the broadcast bring to (b, p, 0) is the pair array's at (b, p, k)
  have hw : shapeCast S8x4096 (extractStridedSlice S8x4096x1 ![0, 0, o] x h) shapeCasts_S8x4096x1_S8x4096 (ix2 b p)
      = x (ix3 b p k) := by
    refine (shapeCast_apply _ shapeCasts_S8x4096x1_S8x4096 (ix2 b p) (ix3 b p (0 : Fin 1)) ?_).trans ?_
    · rewrite [Shape.rowMajor_val_three, Shape.rowMajor_val_two]
      show (b.val * 4096 + p.val) * 1 + 0 = b.val * 4096 + p.val
      omega
    · exact extractStridedSlice_apply ![0, 0, o] x h (ix3 b p (0 : Fin 1)) (ix3 b p k) (fun a => match a with
        | ⟨0, _⟩ => by show b.val = 0 + b.val; omega
        | ⟨1, _⟩ => by show p.val = 0 + p.val; omega
        | ⟨2, _⟩ => by show k.val = o + 0; omega)
  -- the broadcast back reads the clipped array at (b, p); the clip is pointwise and its bounds are constants
  refine (congrArg BitVec.toNat (broadcastInDim_apply ![0, 1] bcast_S8x4096_S8x4096x1_0_1 _ (ix3 b p (0 : Fin 1)) (ix2 b p)
    (fun a => match a with
      | ⟨0, _⟩ => by show b.val = if (8 : Nat) = 1 then 0 else b.val; rw [if_neg (by decide)]
      | ⟨1, _⟩ => by show p.val = if (4096 : Nat) = 1 then 0 else p.val; rw [if_neg (by decide)]))).trans ?_
  show (IntOp.minsi 1023#32 (IntOp.maxsi 0#32
    (shapeCast S8x4096 (extractStridedSlice S8x4096x1 ![0, 0, o] x h) shapeCasts_S8x4096x1_S8x4096 (ix2 b p)))).toNat = _
  rw [hw]
  exact toNat_clip _

/-- The parent index column as the region finds it: at batch `b`, pair `p`, the clipped first word of the pair. -/
theorem parent_apply (c : Dev nD) (b : Fin 8) (p : Fin 4096) :
    ((V m c main_v3 : IVec S8x4096x1 32) (ix3 b p (0 : Fin 1))).toNat
      = (rowOf ((m ((c : Thread nD τ).loc main_arg1) : IVec S8x4096x2 32) (ix3 b p (0 : Fin 2)))).val := by
  -- the operations that write the buffer: the slice of column 0, the reshape, the clip, the broadcast back
  have e : (V m c main_v3 : S8x4096x1.Idx → _)
      = broadcastInDim S8x4096x1 ![0, 1] bcast_S8x4096_S8x4096x1_0_1
          (minsi (broadcastInDim S8x4096 ![] bcast_S_S8x4096 (constantI S_ 32 1023#32))
            (maxsi (broadcastInDim S8x4096 ![] bcast_S_S8x4096 (constantI S_ 32 0#32))
              (shapeCast S8x4096 (extractStridedSlice S8x4096x1 ![0, 0, 0] (m ((c : Thread nD τ).loc main_arg1) : IVec S8x4096x2 32)
                slices_S8x4096x2_S8x4096x1_0_0_0) shapeCasts_S8x4096x1_S8x4096))) := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact clippedColumn_apply _ 0 (0 : Fin 2) rfl slices_S8x4096x2_S8x4096x1_0_0_0 b p

/-- The child index column likewise: the clipped second word of the pair. -/
theorem child_apply (c : Dev nD) (b : Fin 8) (p : Fin 4096) :
    ((V m c main_v7 : IVec S8x4096x1 32) (ix3 b p (0 : Fin 1))).toNat
      = (rowOf ((m ((c : Thread nD τ).loc main_arg1) : IVec S8x4096x2 32) (ix3 b p (1 : Fin 2)))).val := by
  -- the operations that write the buffer: the slice of column 1, the reshape, the clip, the broadcast back
  have e : (V m c main_v7 : S8x4096x1.Idx → _)
      = broadcastInDim S8x4096x1 ![0, 1] bcast_S8x4096_S8x4096x1_0_1
          (minsi (broadcastInDim S8x4096 ![] bcast_S_S8x4096 (constantI S_ 32 1023#32))
            (maxsi (broadcastInDim S8x4096 ![] bcast_S_S8x4096 (constantI S_ 32 0#32))
              (shapeCast S8x4096 (extractStridedSlice S8x4096x1 ![0, 0, 1] (m ((c : Thread nD τ).loc main_arg1) : IVec S8x4096x2 32)
                slices_S8x4096x2_S8x4096x1_0_0_1) shapeCasts_S8x4096x1_S8x4096))) := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
    rfl
  rw [e]
  exact clippedColumn_apply _ 1 (1 : Fin 2) rfl slices_S8x4096x2_S8x4096x1_0_0_1 b p

/-- The upper half of the second-layer weights as the region finds it. -/
theorem top_apply (c : Dev nD) (f g : Fin 512) :
    (V m c main_v8 : FVec F S512x512 .f32) (ix2 f g)
      = (m ((c : Thread nD τ).loc main_arg4) : FVec F S1024x512 .f32) (ix2 (topHalf f) g) := by
  -- the one operation that writes the buffer: the slice of the weights at offsets (0, 0)
  have e : (V m c main_v8 : S512x512.Idx → _)
      = extractStridedSlice S512x512 ![0, 0] (m ((c : Thread nD τ).loc main_arg4) : FVec F S1024x512 .f32) slices_S1024x512_S512x512_0_0 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
  rw [e]
  -- a slice read at (f, g) is the operand at (0 + f, 0 + g)
  exact extractStridedSlice_apply ![0, 0] _ slices_S1024x512_S512x512_0_0 (ix2 f g) (ix2 (topHalf f) g) (fun a => match a with
    | ⟨0, _⟩ => by show f.val = 0 + f.val; omega
    | ⟨1, _⟩ => by show g.val = 0 + g.val; omega)

/-- The lower half. -/
theorem bot_apply (c : Dev nD) (f g : Fin 512) :
    (V m c main_v9 : FVec F S512x512 .f32) (ix2 f g)
      = (m ((c : Thread nD τ).loc main_arg4) : FVec F S1024x512 .f32) (ix2 (botHalf f) g) := by
  -- the one operation that writes the buffer: the slice of the weights at offsets (512, 0)
  have e : (V m c main_v9 : S512x512.Idx → _)
      = extractStridedSlice S512x512 ![512, 0] (m ((c : Thread nD τ).loc main_arg4) : FVec F S1024x512 .f32) slices_S1024x512_S512x512_512_0 := by
    dsimp only [Gen.V]
    simp only [Gen.hostOps0, Gen.hostOps0_1, Gen.hostOps0_2, Gen.hostOps0_3, Gen.hostOps0_4, List.flatten_cons, List.flatten_nil,
      List.append_nil, List.cons_append, List.nil_append]
    after_results
  rw [e]
  -- a slice read at (f, g) is the operand at (512 + f, 0 + g)
  exact extractStridedSlice_apply ![512, 0] _ slices_S1024x512_S512x512_512_0 (ix2 f g) (ix2 (botHalf f) g) (fun a => match a with
    | ⟨0, _⟩ => by show 512 + f.val = 512 + f.val; omega
    | ⟨1, _⟩ => by show g.val = 0 + g.val; omega)

end Cert.KernelIdeal.Host

end
-- ==== Proof.KValue.lean ====
/-
  The kernel's result array, as one function of the six argument arrays.

  The grid has 8 × 4 points; point `t` works on batch `t / 4` and on pair tile `t % 4`, 1024 pairs. The two tables
  the body carries between points are filled at the first tile of a batch and kept through its other three, so after
  every point they hold the tables of that point's batch: for each span row, the hidden row against the upper and
  against the lower half of the second-layer weights. What a point writes back is, at tile pair `q` and column `g`, the
  table rows the pair's two clipped indices name, added to the bias and clipped below at zero; a clipped index is the
  row the pair names. The 32 written blocks tile the result array, which therefore ends at `PairSpec.G` of the
  arguments.
-/
import proofs.«424607_j63376537420533_2_alg».proof.Proof.Gen.KernelIdeal.Value
import proofs.«424607_j63376537420533_2_alg».proof.Proof.KPieces
import proofs.«424607_j63376537420533_2_alg».proof.Proof.KPayIdx
import proofs.«424607_j63376537420533_2_alg».proof.Proof.KHost
import proofs.«424607_j63376537420533_2_alg».proof.Proof.PairSpec
import Idealize.ShloMosaic.Lib.Pipeline.Value
import Idealize.ShloMosaic.Lib.ValueIdx

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem Cert.PairSpec
open Idealize.ShloMosaic.Pipeline (Dat)

variable (m : (ℓ : Loc nD τ sig) → Buf (Elt Ideal) ℓ) (ρ : Dev nD → PrngReg)

/-! ## The index maps over the grid -/

/-- Point `t` of the 32 is at batch `t / 4`, pair tile `t % 4`: the block each window fetches or writes there. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 3) = t.val / 4 ∧ win0_2.index t (1 : Fin 3) = t.val % 4 ∧ win0_2.index t (2 : Fin 3) = 0)
    ∧ (win0_3.index t (0 : Fin 2) = 0 ∧ win0_3.index t (1 : Fin 2) = 0)
    ∧ (win0_4.index t (0 : Fin 1) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 1) = 0)
    ∧ (win0_8.index t (0 : Fin 3) = t.val / 4 ∧ win0_8.index t (1 : Fin 3) = t.val % 4 ∧ win0_8.index t (2 : Fin 3) = 0) :=
  (by decide +kernel : ∀ t : Fin grid0.N, _)

theorem lt32 (t : Fin cfg0.N) : t.val < 32 := lt_of_lt_of_eq t.isLt (show cfg0.N = 32 from N_0)

/-- The batch and the pair tile of a point. -/
def batchOf (t : Fin cfg0.N) : Fin 8 := ⟨t.val / 4, by have := lt32 t; omega⟩
def tileOf (t : Fin cfg0.N) : Fin 4 := ⟨t.val % 4, by omega⟩

/-! ## The arrays the region reads, and their blocks, at literal types -/

abbrev xArr (c : Dev nD) : Vec Ideal S8x1024x1024 .f32 := V m c main_arg0
abbrev ipArr (c : Dev nD) : Vec Ideal S8x4096x1 .i32 := V m c main_v3
abbrev icArr (c : Dev nD) : Vec Ideal S8x4096x1 .i32 := V m c main_v7
abbrev w1Arr (c : Dev nD) : Vec Ideal S1024x512 .f32 := V m c main_arg2
abbrev b1Arr (c : Dev nD) : Vec Ideal S512 .f32 := V m c main_arg3
abbrev wtArr (c : Dev nD) : Vec Ideal S512x512 .f32 := V m c main_v8
abbrev wbArr (c : Dev nD) : Vec Ideal S512x512 .f32 := V m c main_v9
abbrev brArr (c : Dev nD) : Vec Ideal S512 .f32 := V m c main_arg5

/-- The arguments among them are as launched: no host operation in front of the region writes them. -/
theorem xArr_eq (c : Dev nD) : xArr m c = m ((c : Thread nD τ).loc main_arg0) := V_main_arg0 m c
theorem w1Arr_eq (c : Dev nD) : w1Arr m c = m ((c : Thread nD τ).loc main_arg2) := V_main_arg2 m c
theorem b1Arr_eq (c : Dev nD) : b1Arr m c = m ((c : Thread nD τ).loc main_arg3) := V_main_arg3 m c
theorem brArr_eq (c : Dev nD) : brArr m c = m ((c : Thread nD τ).loc main_arg5) := V_main_arg5 m c

/-- Batch `b`'s span block. -/
def xBlk (c : Dev nD) (b : Fin 8) : Vec Ideal S1x1024x1024 .f32 :=
  fun y => xArr m c (ix3 b ⟨(y 1).val, (y 1).isLt⟩ ⟨(y 2).val, (y 2).isLt⟩)

/-- The parent and the child index columns of batch `b`, pair tile `q`. -/
def ipBlk (c : Dev nD) (b : Fin 8) (q : Fin 4) : Vec Ideal S1x1024x1 .i32 :=
  fun y => ipArr m c (ix3 b ⟨q.val * 1024 + (y 1).val, by have hy : (y 1).val < 1024 := (y 1).isLt; have := q.isLt; omega⟩ (0 : Fin 1))
def icBlk (c : Dev nD) (b : Fin 8) (q : Fin 4) : Vec Ideal S1x1024x1 .i32 :=
  fun y => icArr m c (ix3 b ⟨q.val * 1024 + (y 1).val, by have hy : (y 1).val < 1024 := (y 1).isLt; have := q.isLt; omega⟩ (0 : Fin 1))

/-- Each input window's block at a point, read off its array. -/
theorem blk0 (c : Dev nD) (t : Fin cfg0.N) : iblk m c 0 t = xBlk m c (batchOf t) := by
  obtain ⟨⟨e0, e1, e2⟩, -⟩ := idx_facts t
  funext y
  show V m c main_arg0 (((cfg0.win 0).blk t).view.emb y) = V m c main_arg0 (ix3 (batchOf t) ⟨(y 1).val, (y 1).isLt⟩ ⟨(y 2).val, (y 2).isLt⟩)
  refine congrArg _ (funext fun a => Fin.ext ?_)
  match a with
  | ⟨0, _⟩ => show win0_0.index t (0 : Fin 3) * 1 + 1 * (y 0).val = t.val / 4; have hy : (y 0).val < 1 := (y 0).isLt; omega
  | ⟨1, _⟩ => show win0_0.index t (1 : Fin 3) * 1024 + 1 * (y 1).val = (y 1).val; omega
  | ⟨2, _⟩ => show win0_0.index t (2 : Fin 3) * 1024 + 1 * (y 2).val = (y 2).val; omega

theorem blk1 (c : Dev nD) (t : Fin cfg0.N) : iblk m c 1 t = ipBlk m c (batchOf t) (tileOf t) := by
  obtain ⟨-, ⟨e0, e1, e2⟩, -⟩ := idx_facts t
  funext y
  show V m c main_v3 (((cfg0.win 1).blk t).view.emb y) = V m c main_v3 (ix3 (batchOf t) ⟨(tileOf t).val * 1024 + (y 1).val, _⟩ (0 : Fin 1))
  refine congrArg _ (funext fun a => Fin.ext ?_)
  match a with
  | ⟨0, _⟩ => show win0_1.index t (0 : Fin 3) * 1 + 1 * (y 0).val = t.val / 4; have hy : (y 0).val < 1 := (y 0).isLt; omega
  | ⟨1, _⟩ => show win0_1.index t (1 : Fin 3) * 1024 + 1 * (y 1).val = t.val % 4 * 1024 + (y 1).val; omega
  | ⟨2, _⟩ => show win0_1.index t (2 : Fin 3) * 1 + 1 * (y 2).val = 0; have hy : (y 2).val < 1 := (y 2).isLt; omega

theorem blk2 (c : Dev nD) (t : Fin cfg0.N) : iblk m c 2 t = icBlk m c (batchOf t) (tileOf t) := by
  obtain ⟨-, -, ⟨e0, e1, e2⟩, -⟩ := idx_facts t
  funext y
  show V m c main_v7 (((cfg0.win 2).blk t).view.emb y) = V m c main_v7 (ix3 (batchOf t) ⟨(tileOf t).val * 1024 + (y 1).val, _⟩ (0 : Fin 1))
  refine congrArg _ (funext fun a => Fin.ext ?_)
  match a with
  | ⟨0, _⟩ => show win0_2.index t (0 : Fin 3) * 1 + 1 * (y 0).val = t.val / 4; have hy : (y 0).val < 1 := (y 0).isLt; omega
  | ⟨1, _⟩ => show win0_2.index t (1 : Fin 3) * 1024 + 1 * (y 1).val = t.val % 4 * 1024 + (y 1).val; omega
  | ⟨2, _⟩ => show win0_2.index t (2 : Fin 3) * 1 + 1 * (y 2).val = 0; have hy : (y 2).val < 1 := (y 2).isLt; omega

theorem blk3 (c : Dev nD) (t : Fin cfg0.N) : iblk m c 3 t = w1Arr m c := by
  obtain ⟨-, -, -, ⟨e0, e1⟩, -⟩ := idx_facts t
  funext y
  show V m c main_arg2 (((cfg0.win 3).blk t).view.emb y) = V m c main_arg2 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 512 + 1 * (y 1).val = (y 1).val; omega

theorem blk4 (c : Dev nD) (t : Fin cfg0.N) : iblk m c 4 t = b1Arr m c := by
  obtain ⟨-, -, -, -, e0, -⟩ := idx_facts t
  funext y
  show V m c main_arg3 (((cfg0.win 4).blk t).view.emb y) = V m c main_arg3 y
  refine congrArg _ (funext fun a => Fin.ext ?_)
  match a with
  | ⟨0, _⟩ => show win0_4.index t (0 : Fin 1) * 512 + 1 * (y 0).val = (y 0).val; omega

theorem blk5 (c : Dev nD) (t : Fin cfg0.N) : iblk m c 5 t = wtArr m c := by
  obtain ⟨-, -, -, -, -, ⟨e0, e1⟩, -⟩ := idx_facts t
  funext y
  show V m c main_v8 (((cfg0.win 5).blk t).view.emb y) = V m c main_v8 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

theorem blk6 (c : Dev nD) (t : Fin cfg0.N) : iblk m c 6 t = wbArr m c := by
  obtain ⟨-, -, -, -, -, -, ⟨e0, e1⟩, -⟩ := idx_facts t
  funext y
  show V m c main_v9 (((cfg0.win 6).blk t).view.emb y) = V m c main_v9 y
  refine congrArg _ (funext fun a => Fin.ext ?_)
  match a with
  | ⟨0, _⟩ => show win0_6.index t (0 : Fin 2) * 512 + 1 * (y 0).val = (y 0).val; omega
  | ⟨1, _⟩ => show win0_6.index t (1 : Fin 2) * 512 + 1 * (y 1).val = (y 1).val; omega

theorem blk7 (c : Dev nD) (t : Fin cfg0.N) : iblk m c 7 t = brArr m c := by
  obtain ⟨-, -, -, -, -, -, -, e0, -⟩ := idx_facts t
  funext y
  show V m c main_arg5 (((cfg0.win 7).blk t).view.emb y) = V m c main_arg5 y
  refine congrArg _ (funext fun a => Fin.ext ?_)
  match a with
  | ⟨0, _⟩ => show win0_7.index t (0 : Fin 1) * 512 + 1 * (y 0).val = (y 0).val; omega

/-! ## The carried tables -/

/-- Batch `b`'s parent table and child table: the body's stored values over the batch's span block. -/
def gpOf (c : Dev nD) (b : Fin 8) : Vec Ideal S1024x512 .bf16 :=
  k0_pay2 (F := Ideal) (xBlk m c b) (w1Arr m c) (b1Arr m c) (wtArr m c)
def gcOf (c : Dev nD) (b : Fin 8) : Vec Ideal S1024x512 .bf16 :=
  k0_pay3 (F := Ideal) (xBlk m c b) (w1Arr m c) (b1Arr m c) (wbArr m c)

/-- After every point the two carried tables are those of the point's batch: filled at the batch's first tile, kept
    through the other three. -/
theorem tables_at (c : Dev nD) : ∀ (n : ℕ) (hn : n < cfg0.N),
    (outsAt0 m c n hn).2.1 = gpOf m c (batchOf ⟨n, hn⟩) ∧ (outsAt0 m c n hn).2.2 = gcOf m c (batchOf ⟨n, hn⟩) := by
  intro n
  induction n with
  | zero =>
    intro hn
    rw [outsAt0_A m c ⟨0, hn⟩ (Nat.zero_mod _)]
    dsimp only
    constructor
    · rw [Pieces.scratch0_A, blk0, blk3, blk4, blk5]; rfl
    · rw [Pieces.scratch1_A, blk0, blk3, blk4, blk6]; rfl
  | succ n ih =>
    intro hn
    by_cases h0 : (n + 1) % 4 = 0
    · rw [outsAt0_A m c ⟨n + 1, hn⟩ h0]
      dsimp only
      constructor
      · rw [Pieces.scratch0_A, blk0, blk3, blk4, blk5]; rfl
      · rw [Pieces.scratch1_A, blk0, blk3, blk4, blk6]; rfl
    · rw [outsAt0_B m c ⟨n + 1, hn⟩ h0]
      dsimp only
      unfold sout0_B_0 sout0_B_1
      have hb : batchOf ⟨n + 1, hn⟩ = batchOf ⟨n + 1 - 1, Nat.lt_of_le_of_lt (Nat.sub_le _ _) hn⟩ := by
        apply Fin.ext; show (n + 1) / 4 = (n + 1 - 1) / 4; omega
      rw [hb]
      exact ih _

/-! ## What a point writes back -/

/-- After a point, the output tile's staging buffer holds the body's output value over the point's two index
    columns, its batch's tables and the bias: at a batch's first tile over the tables just stored, at the others
    over the tables as the point before left them, which are the same. -/
theorem out_at (c : Dev nD) (t : Fin cfg0.N) :
    (outsAt0 m c t.val t.isLt).1
      = k0_pay4 (F := Ideal) (ipBlk m c (batchOf t) (tileOf t)) (icBlk m c (batchOf t) (tileOf t))
          (gpOf m c (batchOf t)) (gcOf m c (batchOf t)) (brArr m c) := by
  by_cases h0 : t.val % 4 = 0
  · rw [outsAt0_A m c t h0]
    dsimp only
    rw [Pieces.out_A, blk0, blk1, blk2, blk3, blk4, blk5, blk6, blk7]
    rfl
  · rw [outsAt0_B m c t h0]
    dsimp only
    have hn := tables_at m c (t.val - 1) (Nat.lt_of_le_of_lt (Nat.sub_le _ _) t.isLt)
    have hb : batchOf ⟨t.val - 1, Nat.lt_of_le_of_lt (Nat.sub_le _ _) t.isLt⟩ = batchOf t := by
      apply Fin.ext; show (t.val - 1) / 4 = t.val / 4; omega
    rw [Pieces.out_B, blk1, blk2, blk7, hn.1, hn.2, hb]

/-! ## The body's values against the specification -/

/-- The hidden row the body computes from batch `b`'s span block is the specification's. -/
theorem hidden_eq (c : Dev nD) (b : Fin 8) (s : Fin 1024) (f : Fin 512) :
    k0_pay1 (F := Ideal) (xBlk m c b) (w1Arr m c) (b1Arr m c) (ix2 s f)
      = hidden (m ((c : Thread nD τ).loc main_arg0)) (m ((c : Thread nD τ).loc main_arg2)) (m ((c : Thread nD τ).loc main_arg3)) b s f := by
  rw [PayIdx.pay1_apply]
  unfold PairSpec.hidden xBlk
  show max (∑ d : Fin 1024, xArr m c (ix3 b s d) * w1Arr m c (ix2 d f) + b1Arr m c (ix1 f)) 0 = _
  rw [xArr_eq, w1Arr_eq, b1Arr_eq]

/-- Batch `b`'s parent table at row `s`, column `g`: the hidden row against the upper half of the second-layer weights. -/
theorem gp_apply (c : Dev nD) (b : Fin 8) (s : Fin 1024) (g : Fin 512) :
    gpOf m c b (ix2 s g)
      = ∑ f : Fin 512, hidden (m ((c : Thread nD τ).loc main_arg0)) (m ((c : Thread nD τ).loc main_arg2)) (m ((c : Thread nD τ).loc main_arg3)) b s f
          * (m ((c : Thread nD τ).loc main_arg4) : FVec Ideal S1024x512 .f32) (ix2 (topHalf f) g) := by
  unfold gpOf
  rw [PayIdx.pay2_apply]
  refine Finset.sum_congr rfl fun f _ => ?_
  rw [hidden_eq]
  exact congrArg _ (Host.top_apply m c f g)

/-- … and its child table: against the lower half. -/
theorem gc_apply (c : Dev nD) (b : Fin 8) (s : Fin 1024) (g : Fin 512) :
    gcOf m c b (ix2 s g)
      = ∑ f : Fin 512, hidden (m ((c : Thread nD τ).loc main_arg0)) (m ((c : Thread nD τ).loc main_arg2)) (m ((c : Thread nD τ).loc main_arg3)) b s f
          * (m ((c : Thread nD τ).loc main_arg4) : FVec Ideal S1024x512 .f32) (ix2 (botHalf f) g) := by
  unfold gcOf
  rw [PayIdx.pay3_apply]
  refine Finset.sum_congr rfl fun f _ => ?_
  rw [hidden_eq]
  exact congrArg _ (Host.bot_apply m c f g)

/-- The pair of batch `b` at position `q` of tile `qt`. -/
def pairAt (qt : Fin 4) (q : Fin 1024) : Fin 4096 := ⟨qt.val * 1024 + q.val, by have := qt.isLt; have := q.isLt; omega⟩

/-- The words of a tile's index columns are below 1024: they are clipped. -/
theorem ip_lt (c : Dev nD) (b : Fin 8) (qt : Fin 4) (p : Fin 1024) :
    (ipBlk m c b qt (ix3 (0 : Fin 1) p (0 : Fin 1)) : BitVec 32).toNat < 1024 := by
  show ((V m c main_v3 : IVec S8x4096x1 32) (ix3 b (pairAt qt p) (0 : Fin 1))).toNat < 1024
  rw [Host.parent_apply]; exact (rowOf _).isLt
theorem ic_lt (c : Dev nD) (b : Fin 8) (qt : Fin 4) (p : Fin 1024) :
    (icBlk m c b qt (ix3 (0 : Fin 1) p (0 : Fin 1)) : BitVec 32).toNat < 1024 := by
  show ((V m c main_v7 : IVec S8x4096x1 32) (ix3 b (pairAt qt p) (0 : Fin 1))).toNat < 1024
  rw [Host.child_apply]; exact (rowOf _).isLt

/-- The body's output value at position `q` of tile `qt`, column `g`, is the specification's result at that pair. -/
theorem out_apply (c : Dev nD) (b : Fin 8) (qt : Fin 4) (q : Fin 1024) (g : Fin 512) :
    k0_pay4 (F := Ideal) (ipBlk m c b qt) (icBlk m c b qt) (gpOf m c b) (gcOf m c b) (brArr m c) (ix3 (0 : Fin 1) q g)
      = pairOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b (pairAt qt q) g := by
  rw [PayIdx.pay4_apply _ _ _ _ _ (ip_lt m c b qt) (ic_lt m c b qt) q g, gp_apply, gc_apply]
  unfold pairOut
  have hp : (⟨(ipBlk m c b qt (ix3 (0 : Fin 1) q (0 : Fin 1)) : BitVec 32).toNat, ip_lt m c b qt q⟩ : Fin 1024)
      = rowOf ((m ((c : Thread nD τ).loc main_arg1) : IVec S8x4096x2 32) (ix3 b (pairAt qt q) (0 : Fin 2))) :=
    Fin.ext (Host.parent_apply m c b (pairAt qt q))
  have hc : (⟨(icBlk m c b qt (ix3 (0 : Fin 1) q (0 : Fin 1)) : BitVec 32).toNat, ic_lt m c b qt q⟩ : Fin 1024)
      = rowOf ((m ((c : Thread nD τ).loc main_arg1) : IVec S8x4096x2 32) (ix3 b (pairAt qt q) (1 : Fin 2))) :=
    Fin.ext (Host.child_apply m c b (pairAt qt q))
  rw [hp, hc]
  rw [brArr_eq]

/-- WHAT POINT `t` WRITES BACK is block `t` of the specification's result of the arguments. -/
theorem flushed_eq (c : Dev nD) (t : Fin cfg0.N) :
    (dats m 0 c).flushed 8 t = ((cfg0.win 8).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  obtain ⟨-, -, -, -, -, -, -, -, ⟨e0, e1, e2⟩⟩ := idx_facts t
  rw [Value.flushed8, out_at]
  funext y
  obtain ⟨y0, q, g, rfl⟩ : ∃ (y0 : Fin 1) (q : Fin 1024) (g : Fin 512), y = ix3 y0 q g := ⟨y 0, y 1, y 2, eq_ix3 y⟩
  obtain rfl : y0 = 0 := Subsingleton.elim _ _
  show k0_pay4 (F := Ideal) (ipBlk m c (batchOf t) (tileOf t)) (icBlk m c (batchOf t) (tileOf t)) (gpOf m c (batchOf t)) (gcOf m c (batchOf t)) (brArr m c) (ix3 (0 : Fin 1) q g)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb (ix3 (0 : Fin 1) q g))
  have hemb : ((cfg0.win 8).blk t).view.emb (ix3 (0 : Fin 1) q g) = ix3 (batchOf t) (pairAt (tileOf t) q) g :=
    funext fun a => Fin.ext (by
      match a with
      | ⟨0, _⟩ => show win0_8.index t (0 : Fin 3) * 1 + 1 * 0 = t.val / 4; omega
      | ⟨1, _⟩ => show win0_8.index t (1 : Fin 3) * 1024 + 1 * q.val = t.val % 4 * 1024 + q.val; omega
      | ⟨2, _⟩ => show win0_8.index t (2 : Fin 3) * 512 + 1 * g.val = g.val; omega)
  rw [hemb, G_ix3, out_apply]

/-! ## The result array -/

/-- An index of the result array is in point `t`'s block iff each coordinate is in the block's range. -/
theorem mem_blk (t : Fin cfg0.N) (i : S8x4096x512.Idx) :
    i ∈ ((cfg0.win 8).blk t).view.set ↔ ∀ a : Fin 3, win0_8.index t a * S1x1024x512.size a ≤ (i a).val ∧ (i a).val < win0_8.index t a * S1x1024x512.size a + S1x1024x512.size a := by
  show i ∈ ((View.whole main_v10).slice (win0_8.rect t)).set ↔ _
  rw [View.set_slice_whole, Rect.mem_set_unit]
  exact Iff.rfl

/-- The 32 blocks tile the array: index `(b, p, g)` lies in the block of point `4 b + p / 1024`. -/
theorem cover (i : S8x4096x512.Idx) : ∃ t : Fin cfg0.N, (cfg0.win 8).flush t = true ∧ i ∈ ((cfg0.win 8).blk t).view.set := by
  have h0 : (i 0).val < 8 := (i 0).isLt
  have h1 : (i 1).val < 4096 := (i 1).isLt
  have h2 : (i 2).val < 512 := (i 2).isLt
  have hN : cfg0.N = 32 := N_0
  let t : Fin cfg0.N := ⟨4 * (i 0).val + (i 1).val / 1024, by rw [hN]; omega⟩
  obtain ⟨-, -, -, -, -, -, -, -, ⟨e0, e1, e2⟩⟩ := idx_facts t
  have tv : t.val = 4 * (i 0).val + (i 1).val / 1024 := rfl
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 512 ≤ (i 2).val ∧ (i 2).val < win0_8.index t (2 : Fin 3) * 512 + 512; omega

/-- THE RESULT ARRAY after the run is the specification's result of the six arguments. -/
theorem final (c : Dev nD) : (dats m 0 c).arrAt 8 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 8 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

/-- The kernel's run: every weakly fair execution terminates with the result array at the specification's result
    of the arguments, the arguments unchanged. -/
theorem run : θ_run defs (onTc (τ := τ) (main (F := Ideal))) ⟨m, fun _ => 0, ρ⟩ fun r => ∀ c : Dev nD,
      r.2.mem ((c : Thread nD τ).loc main_v10) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.PreDecode.lean ====
/-
  What the precondition says of the pair indices: every word of the pair array, read as a signed integer, lies in
  [0, 1023], the range of a span row.
-/
import proofs.«424607_j63376537420533_2_alg».proof.Pre_finite_inputs
import Idealize.ShloMosaic.Lib.ReduceAll
import Idealize.ShloMosaic.Lib.StableHlo.Predicate

noncomputable section

namespace Cert.PreDecode

open Idealize.ShloMosaic

variable [Cert.Pre_finite_inputs.Facts] {F : FTy → Type} [FloatOps F]

/-- Where the precondition holds, every pair word lies in `[0, 1023]` read signed. -/
theorem pairs_inRange (a0 : FVec F Cert.Pre_finite_inputs.S8x1024x1024 .f32) (a1 : IVec Cert.Pre_finite_inputs.S8x4096x2 32)
    (a2 : FVec F Cert.Pre_finite_inputs.S1024x512 .f32) (a3 : FVec F Cert.Pre_finite_inputs.S512 .f32)
    (a4 : FVec F Cert.Pre_finite_inputs.S1024x512 .f32) (a5 : FVec F Cert.Pre_finite_inputs.S512 .f32)
    (h : Cert.Pre_finite_inputs.fn (F := F) a0 a1 a2 a3 a4 a5 = fun _ => 1#1) (i : Cert.Pre_finite_inputs.S8x4096x2.Idx) :
    0 ≤ (a1 i).toInt ∧ (a1 i).toInt ≤ 1023 := by
  -- a rank-0 shape has one index: two of them agree at every axis because there is no axis
  haveI : Subsingleton Cert.Pre_finite_inputs.S_.Idx := ⟨fun a b => funext fun d => d.elim0⟩
  -- the precondition at its one index, with the chain of `let`s opened: a conjunction by `and` of `i1` words
  have e := congrFun h (fun a => a.elim0)
  dsimp only [Cert.Pre_finite_inputs.fn, Cert.Pre_finite_inputs.fn_part1] at e
  -- an `and` of `i1` words is 1 exactly when both are: keep the last two conjuncts, the two range tests
  simp only [andi, IntOp.andi_eq_one] at e
  obtain ⟨⟨-, hge⟩, hle⟩ := e
  -- each is an `and` over every element of a comparison array that came out 1, so the comparison is 1 at `i`
  have g := Host.reduce_andi_all _ _ _ _ _ hge i
  have l := Host.reduce_andi_all _ _ _ _ _ hle i
  -- a signed comparison that is 1 orders its operands read as integers
  simp only [cmpi, IntOp.cmpi_sge, IntOp.cmpi_sle] at g l
  -- the other operand is a scalar laid over the whole array: at `i` it is the scalar, the literal 0 or 1023
  rw [StableHlo.Predicate.bcast_scalar _ Cert.Pre_finite_inputs.Facts.h_S_] at g l
  simp only [constantI] at g l
  have z0 : (0#32 : BitVec 32).toInt = 0 := by decide
  have z1 : (1023#32 : BitVec 32).toInt = 1023 := by decide
  rw [z0] at g
  rw [z1] at l
  exact ⟨g, l⟩

end Cert.PreDecode

end
-- ==== Proof.lean ====
/-
  A fused span-pair layer against its reference, over the extended reals.

  Both programs send each of a batch's 1024 span rows through a first layer, `hidden = max (x · W1 + b1) 0`, and then,
  for each of the batch's 4096 pairs, apply a second layer to the hidden rows of the pair's parent and child laid side
  by side: `max (hidden[parent] · Wr[0:512] + hidden[child] · Wr[512:1024] + br) 0`. The reference does it in that
  order: it takes the two rows along the span axis, joins them, and multiplies by the whole of `Wr`. The kernel pushes
  the second layer through the take: at a batch's first pair tile it multiplies all 1024 hidden rows by the upper and by
  the lower half of `Wr` into two tables it keeps for the batch's four tiles, and for each pair picks one row of each
  table with a one-hot row. The two agree because a sum over the 1024 joined columns is the sum over the first 512 plus
  the sum over the last 512, and a sum against the indicator of one position is the term at that position (on the
  extended reals `0 · v = 0` for every `v`, so no finiteness is used). The kernel clips a pair's index words into
  [0, 1023], which is the row the specification names; the reference's take wraps negative words and fills where a
  word is out of range, so it is the specification's only where the words lie in [0, 1023]: that is what the
  precondition's two range conjuncts give, and the one place the precondition is used.

  The kernel's frames are the generated ones. Its result array is read off the generated blockwise value leg: the
  two carried tables by induction over the 32 grid points, each point's written block at an index, and the blocks tile
  the array (Proof/KValue.lean over Proof/KPieces.lean, Proof/KPayIdx.lean, Proof/KHost.lean). The reference's run is
  the generated one in a repaired copy (Proof/RefRun.lean, Proof/RefRead.lean); its take, its range flag and its join
  are read by hand at an index (Proof/RefStages.lean, Proof/RefValue.lean). Proof/PairSpec.lean states the common
  result and the two laws; Proof/PreDecode.lean reads the index range out of the precondition.
-/
import proofs.«424607_j63376537420533_2_alg».proof.Defs
import proofs.«424607_j63376537420533_2_alg».proof.Proof.Gen.Kernel
import proofs.«424607_j63376537420533_2_alg».proof.Proof.Gen.Kernel.Skeleton
import proofs.«424607_j63376537420533_2_alg».proof.Proof.Gen.Kernel.Launch
import proofs.«424607_j63376537420533_2_alg».proof.Proof.Gen.Kernel.Points
import proofs.«424607_j63376537420533_2_alg».proof.Proof.Gen.Kernel.Frame
import proofs.«424607_j63376537420533_2_alg».proof.Proof.Gen.KernelIdeal
import proofs.«424607_j63376537420533_2_alg».proof.Proof.Gen.KernelIdeal.Skeleton
import proofs.«424607_j63376537420533_2_alg».proof.Proof.Gen.KernelIdeal.Launch
import proofs.«424607_j63376537420533_2_alg».proof.Proof.Gen.KernelIdeal.Points
import proofs.«424607_j63376537420533_2_alg».proof.Proof.Gen.KernelIdeal.Frame
import proofs.«424607_j63376537420533_2_alg».proof.Proof.Gen.ReferenceIdeal
import proofs.«424607_j63376537420533_2_alg».proof.Proof.Gen.Pre_finite_inputs
import proofs.«424607_j63376537420533_2_alg».proof.Proof.Gen.KernelIdeal.Value
import proofs.«424607_j63376537420533_2_alg».proof.Proof.RefValue
import proofs.«424607_j63376537420533_2_alg».proof.Proof.KValue
import proofs.«424607_j63376537420533_2_alg».proof.Proof.PreDecode
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel: nothing to preserve. -/
theorem preserves : Cert.preserves_Kernel_KernelIdeal := trivial

/-- From memories that agree on the six arguments, with the pair indices in range, both programs end with the result
    array at the one function `PairSpec.G` of the arguments: the kernel always, the reference because the indices are
    in range. -/
theorem algebraic : Cert.algebraic_KernelIdeal_ReferenceIdeal := by
  intro m ρ m' ρ' hpre hagree
  refine ⟨fun c => Cert.PairSpec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, (hagree c).1, (hagree c).2.1, (hagree c).2.2.1, (hagree c).2.2.2.1,
    (hagree c).2.2.2.2.1, (hagree c).2.2.2.2.2]
  exact Cert.ReferenceIdeal.RefValue.ref_value _ _ _ _ _ _
    (fun i => Cert.PreDecode.pairs_inRange _ _ _ _ _ _ (hpre c) i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
